-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : IVec S4x2048 32) (main_arg2 : FVec F S3072x1024 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S4x2048 : Shape := ⟨2, ![4, 2048]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S4x1x2048 : Shape := ⟨3, ![4, 1, 2048]⟩
abbrev S1x512x128 : Shape := ⟨3, ![1, 512, 128]⟩
abbrev S1x2048x128 : Shape := ⟨3, ![1, 2048, 128]⟩
abbrev S1x1x2048 : Shape := ⟨3, ![1, 1, 2048]⟩
abbrev S1x2048 : Shape := ⟨2, ![1, 2048]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S3072x1024, .bf16⟩
  | .hbm, ⟨7, _⟩ => ⟨S8192x3072, .bf16⟩
  | .hbm, ⟨8, _⟩ => ⟨S4x2048x3072, .bf16⟩
  | .hbm, ⟨9, _⟩ => ⟨S4x1x2048, .i32⟩
  | .hbm, ⟨10, _⟩ => ⟨S4x2048x1024, .bf16⟩
  | .hbm, ⟨11, _⟩ => ⟨S8192x1024, .bf16⟩
  | .hbm, ⟨12, _⟩ => ⟨S1024x1024, .bf16⟩
  | .hbm, ⟨13, _⟩ => ⟨S8192x1024, .f32⟩
  | .hbm, ⟨14, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x512x128, .bf16⟩
  | .local _ .vmem, ⟨6, _⟩ => ⟨S1x512x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x1x2048, .i32⟩
  | .local _ .vmem, ⟨12, _⟩ => ⟨S1x1x2048, .i32⟩
  | .local _ .vmem, ⟨13, _⟩ => ⟨S1x512x128, .bf16⟩
  | .local _ .vmem, ⟨14, _⟩ => ⟨S1x512x128, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1024, .f32⟩
  | .local _ .vmem, ⟨19, _⟩ => ⟨S512x1024, .f32⟩
  | .local _ .vmem, ⟨20, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  shapeCasts_S4x2048_S4x1x2048 : S4x2048.ShapeCasts S4x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x3072.size a
  hwx1_0 : ∀ i : grid1.Coords, EltTy.bits .bf16 = 32 ∨ (Rect.block (s := S4x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x3072.size a
  hwx1_1 : ∀ i : grid1.Coords, EltTy.bits .bf16 = 32 ∨ (Rect.block (s := S4x2048x3072) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x3072.size a
  hwx1_2 : ∀ i : grid1.Coords, EltTy.bits .bf16 = 32 ∨ (Rect.block (s := S4x2048x3072) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S4x1x2048.size a
  hwx1_3 : ∀ i : grid1.Coords, EltTy.bits .i32 = 32 ∨ (Rect.block (s := S4x1x2048) S1x1x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S4x2048x1024.size a
  hwx1_4 : ∀ i : grid1.Coords, EltTy.bits .bf16 = 32 ∨ (Rect.block (s := S4x2048x1024) S1x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x1x2048 : Shape := ⟨4, ![4, 1, 1, 2048]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S4x2048x3x16x64, .f32⟩
  | .hbm, ⟨7, _⟩ => ⟨S3x4x16x2048x64, .f32⟩
  | .hbm, ⟨8, _⟩ => ⟨S1x4x16x2048x64, .f32⟩
  | .hbm, ⟨9, _⟩ => ⟨S4x16x2048x64, .f32⟩
  | .hbm, ⟨10, _⟩ => ⟨S1x4x16x2048x64, .f32⟩
  | .hbm, ⟨11, _⟩ => ⟨S4x16x2048x64, .f32⟩
  | .hbm, ⟨12, _⟩ => ⟨S1x4x16x2048x64, .f32⟩
  | .hbm, ⟨13, _⟩ => ⟨S4x16x2048x64, .f32⟩
  | .hbm, ⟨14, _⟩ => ⟨S4x16x2048x2048, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x1x1x2048, .f32⟩
  | .hbm, ⟨20, _⟩ => ⟨S4x16x2048x2048, .f32⟩
  | .hbm, ⟨21, _⟩ => ⟨S4x16x2048x2048, .f32⟩
  | .hbm, ⟨22, _⟩ => ⟨S_, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S_, .f32⟩
  | .hbm, ⟨28, _⟩ => ⟨S4x16x2048, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x64, .f32⟩
  | .hbm, ⟨40, _⟩ => ⟨S4x2048x16x64, .f32⟩
  | .hbm, ⟨41, _⟩ => ⟨S4x2048x1024, .f32⟩
  | .hbm, ⟨42, _⟩ => ⟨S4x2048x1024, .f32⟩
  | .hbm, ⟨43, _⟩ => ⟨S1x1x1024, .f32⟩
  | .hbm, ⟨44, _⟩ => ⟨S4x2048x1024, .f32⟩
  | .hbm, ⟨45, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x2048 : S_.BroadcastsInDim S4x2048 (![] : Fin 0 → Fin S4x2048.rank)
  bcast_S4x2048_S4x1x1x2048_0_3 : S4x2048.BroadcastsInDim S4x1x1x2048 (![0, 3] : Fin 2 → Fin S4x1x1x2048.rank)
  bcast_S4x1x1x2048_S4x16x2048x2048_0_1_2_3 : S4x1x1x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.Reg0.lean ====
/-
  Region 0 of the program, the QKV projection: a grid of 16 points, point `t` taking rows [512·t, 512·t + 512) of the
  flattened activations (window 0), the whole weight matrix (window 1, fetched once), and writing back the
  512 × 3072 block of their product (window 2). Stated at a parameter `V`, the buffers' contents when the region is
  entered: each window's block read off its array, what the body leaves in the output's staging buffer as one
  function of the two input blocks, the body's triple, the pipeline's proof data and the body obligation.
-/
import proofs.«400423_j83313775608371_3_alg».proof.Proof.Gen.Kernel.Launch
import proofs.«400423_j83313775608371_3_alg».proof.Proof.Gen.Kernel.Skeleton
import proofs.«400423_j83313775608371_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or kept from the point
    that fetched it, for any proof data on `V`'s arrays whose body leaves the block in place: the activations' window, -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the weights' window, whose one block is fetched at the first point and kept. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole activations block, the whole weight matrix, the whole output block. -/
abbrev rx : Rect S512x1024 := Rect.unit (s := S512x1024) ![0, 0] S512x1024.size inb_S512x1024_S512x1024_0_0
abbrev rw_ : Rect S3072x1024 := Rect.unit (s := S3072x1024) ![0, 0] S3072x1024.size inb_S3072x1024_S3072x1024_0_0
abbrev ro : Rect S512x3072 := Rect.unit (s := S512x3072) ![0, 0] S512x3072.size inb_S512x3072_S512x3072_0_0

/-- The output's staging buffer after the body: its one store, of the product of the two input blocks. -/
def out2 (x0 : Vec F S512x1024 .f32) (x1 : Vec F S3072x1024 .bf16) : Vec F S512x3072 .bf16 :=
  View.canon [⟨ro, k0_pay1 (View.ld x0 rx) (View.ld x1 rw_)⟩]

/-- The store covers the buffer. -/
theorem cover2 (p0 : Vec F S512x3072 .bf16) (y : S512x3072.Idx) :
    ∃ pc ∈ ([⟨ro, p0⟩] : List (View.Piece (Elt F) S512x3072 .bf16)), y ∈ pc.1.set :=
  View.cover_of_tiled [⟨ro, p0⟩] S512x3072.size (by rfl) y

set_option maxHeartbeats 1000000 in
/-- The body on whole staging memrefs, the inputs' at contents `x0`, `x1` and the output's at anything, runs to the
    continuation with the inputs' as they were and the output's at `out2 x0 x1`. -/
theorem sound_kernel (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the region on core `c`: the arrays as the region finds them; after the body at point `t` each
    input's buffer at its block and the output's at `out2` of the two input blocks; the scoped rest and the generator
    register pass through untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Reg0

end
-- ==== Proof.K.Reg1.lean ====
/-
  Region 1 of the program, attention: a grid of 4 × 8 × 4 points (batch, pair of heads, tile of 512 queries). At a point
  the body takes the queries' 512 × 128 column block of the two heads (window 0), the keys' and the values' 2048 × 128
  column blocks of the same two heads (windows 1 and 2: three windows onto ONE array, the projected activations), and the
  batch's 2048 mask integers (window 3); it writes back the 512 × 128 block of the two heads' outputs (window 4). Stated
  at a parameter `V`, the buffers' contents when the region is entered. The three windows that read the shared array
  hold it at three shares that make up the full one.
-/
import proofs.«400423_j83313775608371_3_alg».proof.Proof.Gen.Kernel.Launch
import proofs.«400423_j83313775608371_3_alg».proof.Proof.Gen.Kernel.Skeleton
import proofs.«400423_j83313775608371_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- An input window's current staging buffer holds its block at every point, fetched there or kept from the point that fetched it: the queries, -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the keys, -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the values, -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and the mask integers. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rq : Rect S1x512x128 := Rect.unit (s := S1x512x128) ![0, 0, 0] S1x512x128.size inb_S1x512x128_S1x512x128_0_0_0
abbrev rk : Rect S1x2048x128 := Rect.unit (s := S1x2048x128) ![0, 0, 0] S1x2048x128.size inb_S1x2048x128_S1x2048x128_0_0_0
abbrev ri : Rect S1x1x2048 := Rect.unit (s := S1x1x2048) ![0, 0, 0] S1x1x2048.size inb_S1x1x2048_S1x1x2048_0_0_0

/-- The output's staging buffer after the body: its one store, the two heads' attention outputs side by side, as a
    function of the four input blocks (queries `x0`, keys `x1`, values `x2`, mask integers `x3`). -/
def out4 (x0 : Vec F S1x512x128 .bf16) (x1 : Vec F S1x2048x128 .bf16) (x2 : Vec F S1x2048x128 .bf16) (x3 : Vec F S1x1x2048 .i32) : Vec F S1x512x128 .bf16 :=
  View.canon [⟨rq, k1_pay1 (k1_pay6 (View.ld x3 ri) (View.ld x0 rq) (View.ld x1 rk) (View.ld x2 rk)) (k1_pay7 (View.ld x2 rk))
    (k1_pay8 (View.ld x3 ri) (View.ld x0 rq) (View.ld x1 rk)) (Scalar.ofBits .f32 0x3E000000#32)⟩]

/-- The store covers the buffer. -/
theorem cover4 (p0 : Vec F S1x512x128 .bf16) (y : S1x512x128.Idx) :
    ∃ pc ∈ ([⟨rq, p0⟩] : List (View.Piece (Elt F) S1x512x128 .bf16)), y ∈ pc.1.set :=
  View.cover_of_tiled [⟨rq, p0⟩] S1x512x128.size (by rfl) y

set_option maxHeartbeats 4000000 in
/-- The body on whole staging memrefs, the inputs' at contents `x0` … `x3` and the output's at anything, runs to the
    continuation with the inputs' as they were and the output's at `out4 x0 x1 x2 x3`. -/
theorem sound_kernel (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x1x2048 .i32) (harg6 : arg6.IsWhole)
    (arg7 : Memref sig .tc .vmem S1x512x128 .bf16) (harg7 : arg7.IsWhole)
    (x0 : Vec F S1x512x128 .bf16) (x1 : Vec F S1x2048x128 .bf16) (x2 : Vec F S1x2048x128 .bf16) (x3 : Vec F S1x1x2048 .i32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out4 x0 x1 x2 x3)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  exact View.read_writes_eq_canon _ _ _ (cover4 _)

/-! ## The pipeline's proof data -/

/-- The proof data of the region on core `c`: the arrays as the region finds them; after the body at point `t` each
    input's buffer at its block and the output's at `out4` of the four input blocks; the scoped rest and the generator
    register pass through untouched; nothing owed. The queries', keys' and values' windows read one array: they hold it
    at the left half, the left half of the right half and the right half of the right half of the full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out4 (iblk V c 0 t) (iblk V c 1 t) (iblk V c 2 t) (iblk V c 3 t) := by dsimp only [dat]

theorem q_0 (c : Dev nD) : (dat V c).q 0 = fullShare.left := by dsimp only [dat]
theorem q_1 (c : Dev nD) : (dat V c).q 1 = fullShare.right.left := by dsimp only [dat]
theorem q_2 (c : Dev nD) : (dat V c).q 2 = fullShare.right.right := by dsimp only [dat]
theorem q_3 (c : Dev nD) : (dat V c).q 3 = fullShare := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K.Reg2.lean ====
/-
  Region 2 of the program, the output projection: a grid of 16 points, point `t` taking rows [512·t, 512·t + 512) of
  the flattened attention output (window 0), the whole weight matrix (window 1) and the whole bias (window 2), both
  fetched once, and writing back the 512 × 1024 block of the product plus the bias (window 3). Stated at a parameter
  `V`, the buffers' contents when the region is entered.
-/
import proofs.«400423_j83313775608371_3_alg».proof.Proof.Gen.Kernel.Launch
import proofs.«400423_j83313775608371_3_alg».proof.Proof.Gen.Kernel.Skeleton
import proofs.«400423_j83313775608371_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- An input window's current staging buffer holds its block at every point, fetched there or kept from the point that fetched it: the attention rows, -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the weights, -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the bias. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ra : Rect S512x1024 := Rect.unit (s := S512x1024) ![0, 0] S512x1024.size inb_S512x1024_S512x1024_0_0
abbrev rw_ : Rect S1024x1024 := Rect.unit (s := S1024x1024) ![0, 0] S1024x1024.size inb_S1024x1024_S1024x1024_0_0
abbrev rb : Rect S1024 := Rect.unit (s := S1024) ![0] S1024.size inb_S1024_S1024_0

/-- The output's staging buffer after the body: its one store, the product of the two input blocks plus the bias row. -/
def out3 (x0 : Vec F S512x1024 .bf16) (x1 : Vec F S1024x1024 .bf16) (x2 : Vec F S1024 .f32) : Vec F S512x1024 .f32 :=
  View.canon [⟨ra, k2_pay1 (View.ld x0 ra) (View.ld x1 rw_) (View.ld x2 rb)⟩]

/-- The store covers the buffer. -/
theorem cover3 (p0 : Vec F S512x1024 .f32) (y : S512x1024.Idx) :
    ∃ pc ∈ ([⟨ra, p0⟩] : List (View.Piece (Elt F) S512x1024 .f32)), y ∈ pc.1.set :=
  View.cover_of_tiled [⟨ra, p0⟩] S512x1024.size (by rfl) y

set_option maxHeartbeats 1000000 in
/-- The body on whole staging memrefs, the inputs' at contents `x0`, `x1`, `x2` and the output's at anything, runs to
    the continuation with the inputs' as they were and the output's at `out3 x0 x1 x2`. -/
theorem sound_kernel (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the region on core `c`: the arrays as the region finds them; after the body at point `t` each
    input's buffer at its block and the output's at `out3` of the three input blocks; the scoped rest and the generator
    register pass through untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 (iblk V c 0 t) (iblk V c 1 t) (iblk V c 2 t) := by dsimp only [dat]

theorem before_0 (c : Dev nD) (t : Fin cfg2.N) (d) : (dat V c).before 0 t d = iblk V c 0 t :=
  before0_of V (dat V c) (A_eq V c 0) (after_0 V c) t d
theorem before_1 (c : Dev nD) (t : Fin cfg2.N) (d) : (dat V c).before 1 t d = iblk V c 1 t :=
  before1_of V (dat V c) (A_eq V c 1) (after_1 V c) t d
theorem before_2 (c : Dev nD) (t : Fin cfg2.N) (d) : (dat V c).before 2 t d = iblk V c 2 t :=
  before2_of V (dat V c) (A_eq V c 2) (after_2 V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Reg2

end
-- ==== Proof.K.Shared.lean ====
/-
  Region 1's three reading windows onto one array. The core holds every unscoped buffer whole; the region's proof data
  holds the projected activations' array three times, once per window, at the left half, the left half of the right half
  and the right half of the right half of the full share. At entry the full share is cut into the three; at exit the
  three, all at the same contents (no window writes that array), are put together again.
-/
import proofs.«400423_j83313775608371_3_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

theorem share_0 (c : Dev nD) : (Reg1.dat V c).share 0 = fullShare.left := by
  unfold Dat.share; rw [if_neg (by decide)]; exact Reg1.q_0 V c
theorem share_1 (c : Dev nD) : (Reg1.dat V c).share 1 = fullShare.right.left := by
  unfold Dat.share; rw [if_neg (by decide)]; exact Reg1.q_1 V c
theorem share_2 (c : Dev nD) : (Reg1.dat V c).share 2 = fullShare.right.right := by
  unfold Dat.share; rw [if_neg (by decide)]; exact Reg1.q_2 V c
theorem share_3 (c : Dev nD) : (Reg1.dat V c).share 3 = fullShare := by
  unfold Dat.share; rw [if_neg (by decide)]; exact Reg1.q_3 V c
theorem share_4 (c : Dev nD) : (Reg1.dat V c).share 4 = fullShare := by
  unfold Dat.share; rw [if_pos (by decide)]

/-- The distinct buffers behind the region's arrays, one by one: the projected activations, the mask integers, the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v4) ↦{fullShare} W main_v4)
          ∗ (((c : Thread nD τ).loc main_v5) ↦{fullShare} W main_v5)) := by
  unfold Pipeline.arrBufs
  exact bigSep_eq_bigSepL_of_eq [main_v3, main_v4, main_v5] (by decide) (by decide) _

/-- ENTRY: the region's arrays, at the contents the core's unscoped buffers hold, out of those buffers. -/
theorem arrays_of_bufs (c : Dev nD) (Fa : (w : Fin cfg1.W) → Buf (Elt F) ((cfg1.win w).arr.view.loc (c.tc : Thread nD τ)))
    (hFa : ∀ w, Fa w = V c (Pipeline.arrRef spec1 w)) :
    (unscopedBufs c (V c) : sProp 𝕄) ⊢ iprop((Reg1.dat V c).arrays Fa ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = _ from arrBufs_eq c (V c)]
  unfold Dat.arrays
  rw [bigSep_W1]
  rw [share_0, share_1, share_2, share_3, share_4, (arr_whole1 0).set_eq_univ,
    (arr_whole1 3).set_eq_univ, (arr_whole1 4).set_eq_univ, hFa 0, hFa 1, hFa 2, hFa 3, hFa 4]
  iintro ⟨H3, H4, H5⟩
  ihave H3' := (pointsTo_share (PosShare.mem_left_op_right fullShare)).1 $$ H3
  icases H3' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  isplitl [H4]; · iexact H4
  iexact H5

/-- EXIT: the region's arrays at new contents and the unscoped rest as entered are the core's unscoped buffers at any
    contents that have the arrays' new ones and agree with the entry's off them. -/
theorem bufs_of_arrays (c : Dev nD) (Fa : (w : Fin cfg1.W) → Buf (Elt F) ((cfg1.win w).arr.view.loc (c.tc : Thread nD τ)))
    (hFa : ∀ w, Fa w = V' c (Pipeline.arrRef spec1 w))
    (hrest : ∀ b, b ∉ Finset.univ.image (Pipeline.arrRef spec1) → V' c b = V c b) :
    iprop((Reg1.dat V c).arrays Fa ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  swap
  · unfold Pipeline.unscopedRest
    exact bigSep_congr fun b hb => by rw [hrest b (Finset.mem_sdiff.mp hb).2]
  rw [show (Pipeline.arrBufs (cfgs 1).spec c (V' c) : sProp 𝕄) = _ from arrBufs_eq c (V' c)]
  unfold Dat.arrays
  rw [bigSep_W1]
  rw [share_0, share_1, share_2, share_3, share_4, (arr_whole1 0).set_eq_univ,
    (arr_whole1 3).set_eq_univ, (arr_whole1 4).set_eq_univ, hFa 0, hFa 1, hFa 2, hFa 3, hFa 4]
  iintro ⟨Ha, Hb1, Hb2, H4, H5⟩
  isplitl [Ha Hb1 Hb2]
  · iapply (pointsTo_share (PosShare.mem_left_op_right fullShare)).2
    isplitl [Ha]; · iexact Ha
    iapply (pointsTo_share (PosShare.mem_left_op_right fullShare.right)).2
    isplitl [Hb1]; · iexact Hb1
    iexact Hb2
  isplitl [H4]; · iexact H4
  iexact H5

end Cert.Kernel.Shared

end
-- ==== Proof.K.Run.lean ====
/-
  The program's run. @main is seven segments: a stretch of host operations (flatten the activations, narrow the input
  weights), the QKV projection, a stretch (unflatten its result, reshape the mask integers), attention, a stretch
  (flatten its result, narrow the output weights), the output projection, a last stretch (unflatten the result). The
  contents of the core's unscoped buffers at each boundary are a fold from the launch memory: a host stretch applies its
  operations; a region leaves its output array at what its write-backs fold to and everything else as entered. Each
  region is a segment of the library's kit over that thread state; the run ends with every unscoped buffer at the last
  boundary's contents, from which the arguments (unchanged) and the result are read.
-/
import proofs.«400423_j83313775608371_3_alg».proof.Proof.K.Reg0
import proofs.«400423_j83313775608371_3_alg».proof.Proof.K.Reg1
import proofs.«400423_j83313775608371_3_alg».proof.Proof.K.Reg2
import proofs.«400423_j83313775608371_3_alg».proof.Proof.K.Shared
import proofs.«400423_j83313775608371_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
/-- After the first host stretch: the QKV projection's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the QKV projection's exit: its arrays at what the pipeline leaves, every other buffer as entered. -/
def W2 (c : Dev nD) : Valuation τ sig (Elt F) :=
  Pipeline.withArrays spec0 c (W1 m c) fun w => (Reg0.dat (U1 m) c).arrAt w cfg0.N
theorem W2_arr (c : Dev nD) (w : Fin cfg0.W) :
    W2 m c (Proc.devRef .tc (Pipeline.arrRef spec0 w)) = (Reg0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Reg0.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch: attention's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At attention's exit: its output array at what the pipeline leaves, every other buffer as entered (three of its
    windows read one array, and none of the arrays it reads changes). -/
def W4 (c : Dev nD) : Valuation τ sig (Elt F) :=
  Function.update (W3 m c) (Proc.devRef .tc main_v5) ((Reg1.dat (U3 m) c).arrAt 4 cfg1.N)
theorem W4_out (c : Dev nD) : W4 m c (Proc.devRef .tc main_v5) = (Reg1.dat (U3 m) c).arrAt 4 cfg1.N := by
  unfold W4; exact Function.update_self ..
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) ..
abbrev U4 : (c : Dev nD) → (b : Ref sig .tc) → Buf (Elt F) ((c : Thread nD τ).loc b) := fun c b => W4 m c b
theorem hF1 (c : Dev nD) : ∀ w : Fin cfg1.W, (Reg1.dat (U3 m) c).arrAt w cfg1.N = U4 m c (Pipeline.arrRef spec1 w)
  | ⟨0, _⟩ => ((Reg1.dat (U3 m) c).arrAt_in 0 rfl _).trans ((Reg1.A_eq (U3 m) c 0).trans (W4_of_ne m c main_v3 (by decide)).symm)
  | ⟨1, _⟩ => ((Reg1.dat (U3 m) c).arrAt_in 1 rfl _).trans ((Reg1.A_eq (U3 m) c 1).trans (W4_of_ne m c main_v3 (by decide)).symm)
  | ⟨2, _⟩ => ((Reg1.dat (U3 m) c).arrAt_in 2 rfl _).trans ((Reg1.A_eq (U3 m) c 2).trans (W4_of_ne m c main_v3 (by decide)).symm)
  | ⟨3, _⟩ => ((Reg1.dat (U3 m) c).arrAt_in 3 rfl _).trans ((Reg1.A_eq (U3 m) c 3).trans (W4_of_ne m c main_v4 (by decide)).symm)
  | ⟨4, _⟩ => (W4_out m c).symm
theorem hrest1 (c : Dev nD) : ∀ b, b ∉ Finset.univ.image (Pipeline.arrRef spec1) → U4 m c b = U3 m c b :=
  fun b hb => W4_of_ne m c b fun e => hb (Finset.mem_image.mpr ⟨4, Finset.mem_univ _, e.symm⟩)

/-- After the third host stretch: the output projection's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At the output projection's exit. -/
def W6 (c : Dev nD) : Valuation τ sig (Elt F) :=
  Pipeline.withArrays spec2 c (W5 m c) fun w => (Reg2.dat (U5 m) c).arrAt w cfg2.N
theorem W6_arr (c : Dev nD) (w : Fin cfg2.W) :
    W6 m c (Proc.devRef .tc (Pipeline.arrRef spec2 w)) = (Reg2.dat (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (Reg2.dat (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the last host stretch: the end. -/
abbrev W7 : Dev nD → Valuation τ sig (Elt F) := fun c => StableHlo.after hostOps3 (W6 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (U1 m) c
  | ⟨1, _⟩ => fun c => Reg1.dat (U3 m) c
  | ⟨2, _⟩ => fun c => Reg2.dat (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at the boundary's contents, left at the next
    boundary's. Its arrays are split out of the unscoped buffers and put back at the exit contents; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Attention over the thread state. Its three reading windows onto the projected activations' array take that
    buffer's full share cut in three at entry and give it back whole at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest spec1 c (U3 m c)) :=
      Shared.arrays_of_bufs (F := F) (U3 m) c ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U3 m c))
        ⊢ (unscopedBufs c (U4 m c) : sProp 𝕄) :=
      Shared.bufs_of_arrays (F := F) (U3 m) (U4 m) c ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at the boundary's contents, left at the next
    boundary's. Its arrays are split out of the unscoped buffers and put back at the exit contents; the generator
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Run

end
-- ==== Proof.K.HostVals.lean ====
/-
  The host side of the program's run: what each stretch of host operations leaves in the buffers it writes, and which
  buffers reach a boundary unchanged. The arguments are written by no segment, so they reach the end as launched; each
  stretch is a reshape or a narrowing of a buffer the segment before it left.
-/
import proofs.«400423_j83313775608371_3_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HostVals

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Run

variable (m : (ℓ : Loc nD τ sig) → Buf (Elt F) ℓ) (c : Dev nD)

/-! ## A host stretch leaves what it does not write -/

theorem W1_of (r : Ref sig .tc) (h : r ∉ hostOps0_W) : W1 m c (Proc.devRef .tc r) = W0 m c (Proc.devRef .tc r) :=
  StableHlo.after_of_writes_sub hostOps0 _ hostOps0_writes h
theorem W3_of (r : Ref sig .tc) (h : r ∉ hostOps1_W) : W3 m c (Proc.devRef .tc r) = W2 m c (Proc.devRef .tc r) :=
  StableHlo.after_of_writes_sub hostOps1 _ hostOps1_writes h
theorem W5_of (r : Ref sig .tc) (h : r ∉ hostOps2_W) : W5 m c (Proc.devRef .tc r) = W4 m c (Proc.devRef .tc r) :=
  StableHlo.after_of_writes_sub hostOps2 _ hostOps2_writes h
theorem W7_of (r : Ref sig .tc) (h : r ∉ hostOps3_W) : W7 m c (Proc.devRef .tc r) = W6 m c (Proc.devRef .tc r) :=
  StableHlo.after_of_writes_sub hostOps3 _ hostOps3_writes h

/-! ## The arguments at each boundary: no stretch writes one, no region's output array is one -/

theorem W1_arg1 : W1 m c (Proc.devRef .tc main_arg1) = m ((c : Thread nD τ).loc main_arg1) :=
  (W1_of m c main_arg1 (by decide)).trans rfl
theorem W2_arg1 : W2 m c (Proc.devRef .tc main_arg1) = m ((c : Thread nD τ).loc main_arg1) :=
  (W2_of_ne m c main_arg1 (by decide)).trans (W1_arg1 m c)
theorem W4_arg3 : W4 m c (Proc.devRef .tc main_arg3) = m ((c : Thread nD τ).loc main_arg3) :=
  (W4_of_ne m c main_arg3 (by decide)).trans <| (W3_of m c main_arg3 (by decide)).trans <|
  (W2_of_ne m c main_arg3 (by decide)).trans <| (W1_of m c main_arg3 (by decide)).trans rfl
theorem W4_arg4 : W4 m c (Proc.devRef .tc main_arg4) = m ((c : Thread nD τ).loc main_arg4) :=
  (W4_of_ne m c main_arg4 (by decide)).trans <| (W3_of m c main_arg4 (by decide)).trans <|
  (W2_of_ne m c main_arg4 (by decide)).trans <| (W1_of m c main_arg4 (by decide)).trans rfl

/-! ## The arguments reach the end as launched -/

theorem W7_arg0 : W7 m c (Proc.devRef .tc main_arg0) = m ((c : Thread nD τ).loc main_arg0) :=
  (W7_of m c main_arg0 (by decide)).trans <| (W6_of_ne m c main_arg0 (by decide)).trans <|
  (W5_of m c main_arg0 (by decide)).trans <| (W4_of_ne m c main_arg0 (by decide)).trans <|
  (W3_of m c main_arg0 (by decide)).trans <| (W2_of_ne m c main_arg0 (by decide)).trans <|
  (W1_of m c main_arg0 (by decide)).trans rfl
theorem W7_arg1 : W7 m c (Proc.devRef .tc main_arg1) = m ((c : Thread nD τ).loc main_arg1) :=
  (W7_of m c main_arg1 (by decide)).trans <| (W6_of_ne m c main_arg1 (by decide)).trans <|
  (W5_of m c main_arg1 (by decide)).trans <| (W4_of_ne m c main_arg1 (by decide)).trans <|
  (W3_of m c main_arg1 (by decide)).trans (W2_arg1 m c)
theorem W7_arg2 : W7 m c (Proc.devRef .tc main_arg2) = m ((c : Thread nD τ).loc main_arg2) :=
  (W7_of m c main_arg2 (by decide)).trans <| (W6_of_ne m c main_arg2 (by decide)).trans <|
  (W5_of m c main_arg2 (by decide)).trans <| (W4_of_ne m c main_arg2 (by decide)).trans <|
  (W3_of m c main_arg2 (by decide)).trans <| (W2_of_ne m c main_arg2 (by decide)).trans <|
  (W1_of m c main_arg2 (by decide)).trans rfl
theorem W7_arg3 : W7 m c (Proc.devRef .tc main_arg3) = m ((c : Thread nD τ).loc main_arg3) :=
  (W7_of m c main_arg3 (by decide)).trans <| (W6_of_ne m c main_arg3 (by decide)).trans <|
  (W5_of m c main_arg3 (by decide)).trans (W4_arg3 m c)
/-- The bias is an array the output projection reads through an input window: such an array is never written back. -/
theorem W6_arg4 : W6 m c (Proc.devRef .tc main_arg4) = W5 m c (Proc.devRef .tc main_arg4) :=
  (W6_arr m c 2).trans <| ((Reg2.dat (U5 m) c).arrAt_in 2 rfl _).trans (Reg2.A_eq (U5 m) c 2)
theorem W7_arg4 : W7 m c (Proc.devRef .tc main_arg4) = m ((c : Thread nD τ).loc main_arg4) :=
  (W7_of m c main_arg4 (by decide)).trans <| (W6_arg4 m c).trans <|
  (W5_of m c main_arg4 (by decide)).trans (W4_arg4 m c)

/-! ## What the host stretches compute -/

/-- The first stretch: the activations flattened, the input weights narrowed. -/
theorem W1_v0 : W1 m c (Proc.devRef .tc main_v0) = shapeCast S8192x1024 (m ((c : Thread nD τ).loc main_arg0)) shapeCasts_S4x2048x1024_S8192x1024 := by
  show StableHlo.after hostOps0 (W0 m c) (Proc.devRef .tc main_v0) = _
  after_results
  rfl
theorem W1_v1 : W1 m c (Proc.devRef .tc main_v1) = truncf .bf16 (m ((c : Thread nD τ).loc main_arg2)) bitsLt_bf16_f32 := by
  show StableHlo.after hostOps0 (W0 m c) (Proc.devRef .tc main_v1) = _
  after_results
/-- The second: the projection's result unflattened, the mask integers reshaped. -/
theorem W3_v3 : W3 m c (Proc.devRef .tc main_v3) = shapeCast S4x2048x3072 ((Reg0.dat (U1 m) c).arrAt 2 cfg0.N) shapeCasts_S8192x3072_S4x2048x3072 := by
  show StableHlo.after hostOps1 (W2 m c) (Proc.devRef .tc main_v3) = _
  after_results
  rw [show W2 m c (Proc.devRef .tc main_v2) = (Reg0.dat (U1 m) c).arrAt 2 cfg0.N from W2_arr m c 2]
  rfl
theorem W3_v4 : W3 m c (Proc.devRef .tc main_v4) = shapeCast S4x1x2048 (m ((c : Thread nD τ).loc main_arg1)) shapeCasts_S4x2048_S4x1x2048 := by
  show StableHlo.after hostOps1 (W2 m c) (Proc.devRef .tc main_v4) = _
  after_results
  rw [W2_arg1 m c]
  rfl
/-- The third: attention's result flattened, the output weights narrowed; the bias untouched. -/
theorem W5_v6 : W5 m c (Proc.devRef .tc main_v6) = shapeCast S8192x1024 ((Reg1.dat (U3 m) c).arrAt 4 cfg1.N) shapeCasts_S4x2048x1024_S8192x1024 := by
  show StableHlo.after hostOps2 (W4 m c) (Proc.devRef .tc main_v6) = _
  after_results
  rw [W4_out m c]
  rfl
theorem W5_v7 : W5 m c (Proc.devRef .tc main_v7) = truncf .bf16 (m ((c : Thread nD τ).loc main_arg3)) bitsLt_bf16_f32 := by
  show StableHlo.after hostOps2 (W4 m c) (Proc.devRef .tc main_v7) = _
  after_results
  rw [W4_arg3 m c]
theorem W5_arg4 : W5 m c (Proc.devRef .tc main_arg4) = m ((c : Thread nD τ).loc main_arg4) :=
  (W5_of m c main_arg4 (by decide)).trans (W4_arg4 m c)
/-- The last: the output projection's result unflattened. -/
theorem W7_v9 : W7 m c (Proc.devRef .tc main_v9) = shapeCast S4x2048x1024 ((Reg2.dat (U5 m) c).arrAt 3 cfg2.N) shapeCasts_S8192x1024_S4x2048x1024 := by
  show StableHlo.after hostOps3 (W6 m c) (Proc.devRef .tc main_v9) = _
  after_results
  rw [show W6 m c (Proc.devRef .tc main_v8) = (Reg2.dat (U5 m) c).arrAt 3 cfg2.N from W6_arr m c 3]
  rfl

end Cert.Kernel.HostVals

end
-- ==== Proof.KI.Reg0.lean ====
/-
  Region 0 of the program, the QKV projection: a grid of 16 points, point `t` taking rows [512·t, 512·t + 512) of the
  flattened activations (window 0), the whole weight matrix (window 1, fetched once), and writing back the
  512 × 3072 block of their product (window 2). Stated at a parameter `V`, the buffers' contents when the region is
  entered: each window's block read off its array, what the body leaves in the output's staging buffer as one
  function of the two input blocks, the body's triple, the pipeline's proof data and the body obligation.
-/
import proofs.«400423_j83313775608371_3_alg».proof.Proof.Gen.KernelIdeal.Launch
import proofs.«400423_j83313775608371_3_alg».proof.Proof.Gen.KernelIdeal.Skeleton
import proofs.«400423_j83313775608371_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or kept from the point
    that fetched it, for any proof data on `V`'s arrays whose body leaves the block in place: the activations' window, -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the weights' window, whose one block is fetched at the first point and kept. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole activations block, the whole weight matrix, the whole output block. -/
abbrev rx : Rect S512x1024 := Rect.unit (s := S512x1024) ![0, 0] S512x1024.size inb_S512x1024_S512x1024_0_0
abbrev rw_ : Rect S3072x1024 := Rect.unit (s := S3072x1024) ![0, 0] S3072x1024.size inb_S3072x1024_S3072x1024_0_0
abbrev ro : Rect S512x3072 := Rect.unit (s := S512x3072) ![0, 0] S512x3072.size inb_S512x3072_S512x3072_0_0

/-- The output's staging buffer after the body: its one store, of the product of the two input blocks. -/
def out2 (x0 : Vec F S512x1024 .f32) (x1 : Vec F S3072x1024 .bf16) : Vec F S512x3072 .bf16 :=
  View.canon [⟨ro, k0_pay1 (View.ld x0 rx) (View.ld x1 rw_)⟩]

/-- The store covers the buffer. -/
theorem cover2 (p0 : Vec F S512x3072 .bf16) (y : S512x3072.Idx) :
    ∃ pc ∈ ([⟨ro, p0⟩] : List (View.Piece (Elt F) S512x3072 .bf16)), y ∈ pc.1.set :=
  View.cover_of_tiled [⟨ro, p0⟩] S512x3072.size (by rfl) y

set_option maxHeartbeats 1000000 in
/-- The body on whole staging memrefs, the inputs' at contents `x0`, `x1` and the output's at anything, runs to the
    continuation with the inputs' as they were and the output's at `out2 x0 x1`. -/
theorem sound_kernel (c : Dev nD) (E : Set ℕ) (i : grid0.Coords)
    (arg1 : Memref sig .tc .vmem S512x1024 .f32) (harg1 : arg1.IsWhole) (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the region on core `c`: the arrays as the region finds them; after the body at point `t` each
    input's buffer at its block and the output's at `out2` of the two input blocks; the scoped rest and the generator
    register pass through untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out2 (iblk V c 0 t) (iblk V c 1 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.KI.Reg1.lean ====
/-
  Region 1 of the program, attention: a grid of 4 × 8 × 4 points (batch, pair of heads, tile of 512 queries). At a point
  the body takes the queries' 512 × 128 column block of the two heads (window 0), the keys' and the values' 2048 × 128
  column blocks of the same two heads (windows 1 and 2: three windows onto ONE array, the projected activations), and the
  batch's 2048 mask integers (window 3); it writes back the 512 × 128 block of the two heads' outputs (window 4). Stated
  at a parameter `V`, the buffers' contents when the region is entered. The three windows that read the shared array
  hold it at three shares that make up the full one.
-/
import proofs.«400423_j83313775608371_3_alg».proof.Proof.Gen.KernelIdeal.Launch
import proofs.«400423_j83313775608371_3_alg».proof.Proof.Gen.KernelIdeal.Skeleton
import proofs.«400423_j83313775608371_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- An input window's current staging buffer holds its block at every point, fetched there or kept from the point that fetched it: the queries, -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the keys, -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the values, -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- and the mask integers. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev rq : Rect S1x512x128 := Rect.unit (s := S1x512x128) ![0, 0, 0] S1x512x128.size inb_S1x512x128_S1x512x128_0_0_0
abbrev rk : Rect S1x2048x128 := Rect.unit (s := S1x2048x128) ![0, 0, 0] S1x2048x128.size inb_S1x2048x128_S1x2048x128_0_0_0
abbrev ri : Rect S1x1x2048 := Rect.unit (s := S1x1x2048) ![0, 0, 0] S1x1x2048.size inb_S1x1x2048_S1x1x2048_0_0_0

/-- The output's staging buffer after the body: its one store, the two heads' attention outputs side by side, as a
    function of the four input blocks (queries `x0`, keys `x1`, values `x2`, mask integers `x3`). -/
def out4 (x0 : Vec F S1x512x128 .bf16) (x1 : Vec F S1x2048x128 .bf16) (x2 : Vec F S1x2048x128 .bf16) (x3 : Vec F S1x1x2048 .i32) : Vec F S1x512x128 .bf16 :=
  View.canon [⟨rq, k1_pay1 (k1_pay6 (View.ld x3 ri) (View.ld x0 rq) (View.ld x1 rk) (View.ld x2 rk)) (k1_pay7 (View.ld x2 rk))
    (k1_pay8 (View.ld x3 ri) (View.ld x0 rq) (View.ld x1 rk)) (Scalar.ofBits .f32 0x3E000000#32)⟩]

/-- The store covers the buffer. -/
theorem cover4 (p0 : Vec F S1x512x128 .bf16) (y : S1x512x128.Idx) :
    ∃ pc ∈ ([⟨rq, p0⟩] : List (View.Piece (Elt F) S1x512x128 .bf16)), y ∈ pc.1.set :=
  View.cover_of_tiled [⟨rq, p0⟩] S1x512x128.size (by rfl) y

set_option maxHeartbeats 4000000 in
/-- The body on whole staging memrefs, the inputs' at contents `x0` … `x3` and the output's at anything, runs to the
    continuation with the inputs' as they were and the output's at `out4 x0 x1 x2 x3`. -/
theorem sound_kernel (c : Dev nD) (E : Set ℕ) (i : grid1.Coords)
    (arg3 : Memref sig .tc .vmem S1x512x128 .bf16) (harg3 : arg3.IsWhole) (arg4 : Memref sig .tc .vmem S1x2048x128 .bf16) (harg4 : arg4.IsWhole)
    (arg5 : Memref sig .tc .vmem S1x2048x128 .bf16) (harg5 : arg5.IsWhole) (arg6 : Memref sig .tc .vmem S1x1x2048 .i32) (harg6 : arg6.IsWhole)
    (arg7 : Memref sig .tc .vmem S1x512x128 .bf16) (harg7 : arg7.IsWhole)
    (x0 : Vec F S1x512x128 .bf16) (x1 : Vec F S1x2048x128 .bf16) (x2 : Vec F S1x2048x128 .bf16) (x3 : Vec F S1x1x2048 .i32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out4 x0 x1 x2 x3)) -∗ K ⟨⟩))
      ⊢ wp frame (wpE (defs₀ (F := F)) Variants.none c none) E (cc1__attn_kernel i arg3 harg3 arg4 harg4 arg5 harg5 arg6 harg6 arg7 harg7) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  exact View.read_writes_eq_canon _ _ _ (cover4 _)

/-! ## The pipeline's proof data -/

/-- The proof data of the region on core `c`: the arrays as the region finds them; after the body at point `t` each
    input's buffer at its block and the output's at `out4` of the four input blocks; the scoped rest and the generator
    register pass through untouched; nothing owed. The queries', keys' and values' windows read one array: they hold it
    at the left half, the left half of the right half and the right half of the right half of the full share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (iblk V c 0 t) (iblk V c 1 t) (iblk V c 2 t) (iblk V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = out4 (iblk V c 0 t) (iblk V c 1 t) (iblk V c 2 t) (iblk V c 3 t) := by dsimp only [dat]

theorem q_0 (c : Dev nD) : (dat V c).q 0 = fullShare.left := by dsimp only [dat]
theorem q_1 (c : Dev nD) : (dat V c).q 1 = fullShare.right.left := by dsimp only [dat]
theorem q_2 (c : Dev nD) : (dat V c).q 2 = fullShare.right.right := by dsimp only [dat]
theorem q_3 (c : Dev nD) : (dat V c).q 3 = fullShare := by dsimp only [dat]

theorem before_0 (c : Dev nD) (t : Fin cfg1.N) (d) : (dat V c).before 0 t d = iblk V c 0 t :=
  before0_of V (dat V c) (A_eq V c 0) (after_0 V c) t d
theorem before_1 (c : Dev nD) (t : Fin cfg1.N) (d) : (dat V c).before 1 t d = iblk V c 1 t :=
  before1_of V (dat V c) (A_eq V c 1) (after_1 V c) t d
theorem before_2 (c : Dev nD) (t : Fin cfg1.N) (d) : (dat V c).before 2 t d = iblk V c 2 t :=
  before2_of V (dat V c) (A_eq V c 2) (after_2 V c) t d
theorem before_3 (c : Dev nD) (t : Fin cfg1.N) (d) : (dat V c).before 3 t d = iblk V c 3 t :=
  before3_of V (dat V c) (A_eq V c 3) (after_3 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI.Reg2.lean ====
/-
  Region 2 of the program, the output projection: a grid of 16 points, point `t` taking rows [512·t, 512·t + 512) of
  the flattened attention output (window 0), the whole weight matrix (window 1) and the whole bias (window 2), both
  fetched once, and writing back the 512 × 1024 block of the product plus the bias (window 3). Stated at a parameter
  `V`, the buffers' contents when the region is entered.
-/
import proofs.«400423_j83313775608371_3_alg».proof.Proof.Gen.KernelIdeal.Launch
import proofs.«400423_j83313775608371_3_alg».proof.Proof.Gen.KernelIdeal.Skeleton
import proofs.«400423_j83313775608371_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- An input window's current staging buffer holds its block at every point, fetched there or kept from the point that fetched it: the attention rows, -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the weights, -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the bias. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ra : Rect S512x1024 := Rect.unit (s := S512x1024) ![0, 0] S512x1024.size inb_S512x1024_S512x1024_0_0
abbrev rw_ : Rect S1024x1024 := Rect.unit (s := S1024x1024) ![0, 0] S1024x1024.size inb_S1024x1024_S1024x1024_0_0
abbrev rb : Rect S1024 := Rect.unit (s := S1024) ![0] S1024.size inb_S1024_S1024_0

/-- The output's staging buffer after the body: its one store, the product of the two input blocks plus the bias row. -/
def out3 (x0 : Vec F S512x1024 .bf16) (x1 : Vec F S1024x1024 .bf16) (x2 : Vec F S1024 .f32) : Vec F S512x1024 .f32 :=
  View.canon [⟨ra, k2_pay1 (View.ld x0 ra) (View.ld x1 rw_) (View.ld x2 rb)⟩]

/-- The store covers the buffer. -/
theorem cover3 (p0 : Vec F S512x1024 .f32) (y : S512x1024.Idx) :
    ∃ pc ∈ ([⟨ra, p0⟩] : List (View.Piece (Elt F) S512x1024 .f32)), y ∈ pc.1.set :=
  View.cover_of_tiled [⟨ra, p0⟩] S512x1024.size (by rfl) y

set_option maxHeartbeats 1000000 in
/-- The body on whole staging memrefs, the inputs' at contents `x0`, `x1`, `x2` and the output's at anything, runs to
    the continuation with the inputs' as they were and the output's at `out3 x0 x1 x2`. -/
theorem sound_kernel (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the region on core `c`: the arrays as the region finds them; after the body at point `t` each
    input's buffer at its block and the output's at `out3` of the three input blocks; the scoped rest and the generator
    register pass through untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = out3 (iblk V c 0 t) (iblk V c 1 t) (iblk V c 2 t) := by dsimp only [dat]

theorem before_0 (c : Dev nD) (t : Fin cfg2.N) (d) : (dat V c).before 0 t d = iblk V c 0 t :=
  before0_of V (dat V c) (A_eq V c 0) (after_0 V c) t d
theorem before_1 (c : Dev nD) (t : Fin cfg2.N) (d) : (dat V c).before 1 t d = iblk V c 1 t :=
  before1_of V (dat V c) (A_eq V c 1) (after_1 V c) t d
theorem before_2 (c : Dev nD) (t : Fin cfg2.N) (d) : (dat V c).before 2 t d = iblk V c 2 t :=
  before2_of V (dat V c) (A_eq V c 2) (after_2 V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Reg2

end
-- ==== Proof.KI.Shared.lean ====
/-
  Region 1's three reading windows onto one array. The core holds every unscoped buffer whole; the region's proof data
  holds the projected activations' array three times, once per window, at the left half, the left half of the right half
  and the right half of the right half of the full share. At entry the full share is cut into the three; at exit the
  three, all at the same contents (no window writes that array), are put together again.
-/
import proofs.«400423_j83313775608371_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V V' : (c : Dev nD) → (b : Ref sig .tc) → Buf (Elt F) ((c : Thread nD τ).loc b))

theorem share_0 (c : Dev nD) : (Reg1.dat V c).share 0 = fullShare.left := by
  unfold Dat.share; rw [if_neg (by decide)]; exact Reg1.q_0 V c
theorem share_1 (c : Dev nD) : (Reg1.dat V c).share 1 = fullShare.right.left := by
  unfold Dat.share; rw [if_neg (by decide)]; exact Reg1.q_1 V c
theorem share_2 (c : Dev nD) : (Reg1.dat V c).share 2 = fullShare.right.right := by
  unfold Dat.share; rw [if_neg (by decide)]; exact Reg1.q_2 V c
theorem share_3 (c : Dev nD) : (Reg1.dat V c).share 3 = fullShare := by
  unfold Dat.share; rw [if_neg (by decide)]; exact Reg1.q_3 V c
theorem share_4 (c : Dev nD) : (Reg1.dat V c).share 4 = fullShare := by
  unfold Dat.share; rw [if_pos (by decide)]

/-- The distinct buffers behind the region's arrays, one by one: the projected activations, the mask integers, the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v4) ↦{fullShare} W main_v4)
          ∗ (((c : Thread nD τ).loc main_v5) ↦{fullShare} W main_v5)) := by
  unfold Pipeline.arrBufs
  exact bigSep_eq_bigSepL_of_eq [main_v3, main_v4, main_v5] (by decide) (by decide) _

/-- ENTRY: the region's arrays, at the contents the core's unscoped buffers hold, out of those buffers. -/
theorem arrays_of_bufs (c : Dev nD) (Fa : (w : Fin cfg1.W) → Buf (Elt F) ((cfg1.win w).arr.view.loc (c.tc : Thread nD τ)))
    (hFa : ∀ w, Fa w = V c (Pipeline.arrRef spec1 w)) :
    (unscopedBufs c (V c) : sProp 𝕄) ⊢ iprop((Reg1.dat V c).arrays Fa ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = _ from arrBufs_eq c (V c)]
  unfold Dat.arrays
  rw [bigSep_W1]
  rw [share_0, share_1, share_2, share_3, share_4, (arr_whole1 0).set_eq_univ,
    (arr_whole1 3).set_eq_univ, (arr_whole1 4).set_eq_univ, hFa 0, hFa 1, hFa 2, hFa 3, hFa 4]
  iintro ⟨H3, H4, H5⟩
  ihave H3' := (pointsTo_share (PosShare.mem_left_op_right fullShare)).1 $$ H3
  icases H3' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  isplitl [H4]; · iexact H4
  iexact H5

/-- EXIT: the region's arrays at new contents and the unscoped rest as entered are the core's unscoped buffers at any
    contents that have the arrays' new ones and agree with the entry's off them. -/
theorem bufs_of_arrays (c : Dev nD) (Fa : (w : Fin cfg1.W) → Buf (Elt F) ((cfg1.win w).arr.view.loc (c.tc : Thread nD τ)))
    (hFa : ∀ w, Fa w = V' c (Pipeline.arrRef spec1 w))
    (hrest : ∀ b, b ∉ Finset.univ.image (Pipeline.arrRef spec1) → V' c b = V c b) :
    iprop((Reg1.dat V c).arrays Fa ∗ Pipeline.unscopedRest spec1 c (V c)) ⊢ (unscopedBufs c (V' c) : sProp 𝕄) := by
  rw [Pipeline.unscopedBufs_split₀ cfgs 1 winFacts₀1.arr_unscoped c (V' c)]
  refine sep_mono ?_ (Entails.of_eq ?_)
  swap
  · unfold Pipeline.unscopedRest
    exact bigSep_congr fun b hb => by rw [hrest b (Finset.mem_sdiff.mp hb).2]
  rw [show (Pipeline.arrBufs (cfgs 1).spec c (V' c) : sProp 𝕄) = _ from arrBufs_eq c (V' c)]
  unfold Dat.arrays
  rw [bigSep_W1]
  rw [share_0, share_1, share_2, share_3, share_4, (arr_whole1 0).set_eq_univ,
    (arr_whole1 3).set_eq_univ, (arr_whole1 4).set_eq_univ, hFa 0, hFa 1, hFa 2, hFa 3, hFa 4]
  iintro ⟨Ha, Hb1, Hb2, H4, H5⟩
  isplitl [Ha Hb1 Hb2]
  · iapply (pointsTo_share (PosShare.mem_left_op_right fullShare)).2
    isplitl [Ha]; · iexact Ha
    iapply (pointsTo_share (PosShare.mem_left_op_right fullShare.right)).2
    isplitl [Hb1]; · iexact Hb1
    iexact Hb2
  isplitl [H4]; · iexact H4
  iexact H5

end Cert.KernelIdeal.Shared

end
-- ==== Proof.KI.Run.lean ====
/-
  The program's run. @main is seven segments: a stretch of host operations (flatten the activations, narrow the input
  weights), the QKV projection, a stretch (unflatten its result, reshape the mask integers), attention, a stretch
  (flatten its result, narrow the output weights), the output projection, a last stretch (unflatten the result). The
  contents of the core's unscoped buffers at each boundary are a fold from the launch memory: a host stretch applies its
  operations; a region leaves its output array at what its write-backs fold to and everything else as entered. Each
  region is a segment of the library's kit over that thread state; the run ends with every unscoped buffer at the last
  boundary's contents, from which the arguments (unchanged) and the result are read.
-/
import proofs.«400423_j83313775608371_3_alg».proof.Proof.KI.Reg0
import proofs.«400423_j83313775608371_3_alg».proof.Proof.KI.Reg1
import proofs.«400423_j83313775608371_3_alg».proof.Proof.KI.Reg2
import proofs.«400423_j83313775608371_3_alg».proof.Proof.KI.Shared
import proofs.«400423_j83313775608371_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
/-- After the first host stretch: the QKV projection's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the QKV projection's exit: its arrays at what the pipeline leaves, every other buffer as entered. -/
def W2 (c : Dev nD) : Valuation τ sig (Elt F) :=
  Pipeline.withArrays spec0 c (W1 m c) fun w => (Reg0.dat (U1 m) c).arrAt w cfg0.N
theorem W2_arr (c : Dev nD) (w : Fin cfg0.W) :
    W2 m c (Proc.devRef .tc (Pipeline.arrRef spec0 w)) = (Reg0.dat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (Reg0.dat (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch: attention's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At attention's exit: its output array at what the pipeline leaves, every other buffer as entered (three of its
    windows read one array, and none of the arrays it reads changes). -/
def W4 (c : Dev nD) : Valuation τ sig (Elt F) :=
  Function.update (W3 m c) (Proc.devRef .tc main_v5) ((Reg1.dat (U3 m) c).arrAt 4 cfg1.N)
theorem W4_out (c : Dev nD) : W4 m c (Proc.devRef .tc main_v5) = (Reg1.dat (U3 m) c).arrAt 4 cfg1.N := by
  unfold W4; exact Function.update_self ..
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) ..
abbrev U4 : (c : Dev nD) → (b : Ref sig .tc) → Buf (Elt F) ((c : Thread nD τ).loc b) := fun c b => W4 m c b
theorem hF1 (c : Dev nD) : ∀ w : Fin cfg1.W, (Reg1.dat (U3 m) c).arrAt w cfg1.N = U4 m c (Pipeline.arrRef spec1 w)
  | ⟨0, _⟩ => ((Reg1.dat (U3 m) c).arrAt_in 0 rfl _).trans ((Reg1.A_eq (U3 m) c 0).trans (W4_of_ne m c main_v3 (by decide)).symm)
  | ⟨1, _⟩ => ((Reg1.dat (U3 m) c).arrAt_in 1 rfl _).trans ((Reg1.A_eq (U3 m) c 1).trans (W4_of_ne m c main_v3 (by decide)).symm)
  | ⟨2, _⟩ => ((Reg1.dat (U3 m) c).arrAt_in 2 rfl _).trans ((Reg1.A_eq (U3 m) c 2).trans (W4_of_ne m c main_v3 (by decide)).symm)
  | ⟨3, _⟩ => ((Reg1.dat (U3 m) c).arrAt_in 3 rfl _).trans ((Reg1.A_eq (U3 m) c 3).trans (W4_of_ne m c main_v4 (by decide)).symm)
  | ⟨4, _⟩ => (W4_out m c).symm
theorem hrest1 (c : Dev nD) : ∀ b, b ∉ Finset.univ.image (Pipeline.arrRef spec1) → U4 m c b = U3 m c b :=
  fun b hb => W4_of_ne m c b fun e => hb (Finset.mem_image.mpr ⟨4, Finset.mem_univ _, e.symm⟩)

/-- After the third host stretch: the output projection's entry. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At the output projection's exit. -/
def W6 (c : Dev nD) : Valuation τ sig (Elt F) :=
  Pipeline.withArrays spec2 c (W5 m c) fun w => (Reg2.dat (U5 m) c).arrAt w cfg2.N
theorem W6_arr (c : Dev nD) (w : Fin cfg2.W) :
    W6 m c (Proc.devRef .tc (Pipeline.arrRef spec2 w)) = (Reg2.dat (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (Reg2.dat (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)
/-- After the last host stretch: the end. -/
abbrev W7 : Dev nD → Valuation τ sig (Elt F) := fun c => StableHlo.after hostOps3 (W6 m c)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (U1 m) c
  | ⟨1, _⟩ => fun c => Reg1.dat (U3 m) c
  | ⟨2, _⟩ => fun c => Reg2.dat (U5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at the boundary's contents, left at the next
    boundary's. Its arrays are split out of the unscoped buffers and put back at the exit contents; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Attention over the thread state. Its three reading windows onto the projected activations' array take that
    buffer's full share cut in three at entry and give it back whole at exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest spec1 c (U3 m c)) :=
      Shared.arrays_of_bufs (F := F) (U3 m) c ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (U3 m c))
        ⊢ (unscopedBufs c (U4 m c) : sProp 𝕄) :=
      Shared.bufs_of_arrays (F := F) (U3 m) (U4 m) c ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at the boundary's contents, left at the next
    boundary's. Its arrays are split out of the unscoped buffers and put back at the exit contents; the generator
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN: from any memory with zero counters, every weakly fair execution of @main terminates, nothing faulting, and
    in every final state each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Run

end
-- ==== Proof.KI.HostVals.lean ====
/-
  The host side of the program's run: what each stretch of host operations leaves in the buffers it writes, and which
  buffers reach a boundary unchanged. The arguments are written by no segment, so they reach the end as launched; each
  stretch is a reshape or a narrowing of a buffer the segment before it left.
-/
import proofs.«400423_j83313775608371_3_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HostVals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Run

variable (m : (ℓ : Loc nD τ sig) → Buf (Elt F) ℓ) (c : Dev nD)

/-! ## A host stretch leaves what it does not write -/

theorem W1_of (r : Ref sig .tc) (h : r ∉ hostOps0_W) : W1 m c (Proc.devRef .tc r) = W0 m c (Proc.devRef .tc r) :=
  StableHlo.after_of_writes_sub hostOps0 _ hostOps0_writes h
theorem W3_of (r : Ref sig .tc) (h : r ∉ hostOps1_W) : W3 m c (Proc.devRef .tc r) = W2 m c (Proc.devRef .tc r) :=
  StableHlo.after_of_writes_sub hostOps1 _ hostOps1_writes h
theorem W5_of (r : Ref sig .tc) (h : r ∉ hostOps2_W) : W5 m c (Proc.devRef .tc r) = W4 m c (Proc.devRef .tc r) :=
  StableHlo.after_of_writes_sub hostOps2 _ hostOps2_writes h
theorem W7_of (r : Ref sig .tc) (h : r ∉ hostOps3_W) : W7 m c (Proc.devRef .tc r) = W6 m c (Proc.devRef .tc r) :=
  StableHlo.after_of_writes_sub hostOps3 _ hostOps3_writes h

/-! ## The arguments at each boundary: no stretch writes one, no region's output array is one -/

theorem W1_arg1 : W1 m c (Proc.devRef .tc main_arg1) = m ((c : Thread nD τ).loc main_arg1) :=
  (W1_of m c main_arg1 (by decide)).trans rfl
theorem W2_arg1 : W2 m c (Proc.devRef .tc main_arg1) = m ((c : Thread nD τ).loc main_arg1) :=
  (W2_of_ne m c main_arg1 (by decide)).trans (W1_arg1 m c)
theorem W4_arg3 : W4 m c (Proc.devRef .tc main_arg3) = m ((c : Thread nD τ).loc main_arg3) :=
  (W4_of_ne m c main_arg3 (by decide)).trans <| (W3_of m c main_arg3 (by decide)).trans <|
  (W2_of_ne m c main_arg3 (by decide)).trans <| (W1_of m c main_arg3 (by decide)).trans rfl
theorem W4_arg4 : W4 m c (Proc.devRef .tc main_arg4) = m ((c : Thread nD τ).loc main_arg4) :=
  (W4_of_ne m c main_arg4 (by decide)).trans <| (W3_of m c main_arg4 (by decide)).trans <|
  (W2_of_ne m c main_arg4 (by decide)).trans <| (W1_of m c main_arg4 (by decide)).trans rfl

/-! ## The arguments reach the end as launched -/

theorem W7_arg0 : W7 m c (Proc.devRef .tc main_arg0) = m ((c : Thread nD τ).loc main_arg0) :=
  (W7_of m c main_arg0 (by decide)).trans <| (W6_of_ne m c main_arg0 (by decide)).trans <|
  (W5_of m c main_arg0 (by decide)).trans <| (W4_of_ne m c main_arg0 (by decide)).trans <|
  (W3_of m c main_arg0 (by decide)).trans <| (W2_of_ne m c main_arg0 (by decide)).trans <|
  (W1_of m c main_arg0 (by decide)).trans rfl
theorem W7_arg1 : W7 m c (Proc.devRef .tc main_arg1) = m ((c : Thread nD τ).loc main_arg1) :=
  (W7_of m c main_arg1 (by decide)).trans <| (W6_of_ne m c main_arg1 (by decide)).trans <|
  (W5_of m c main_arg1 (by decide)).trans <| (W4_of_ne m c main_arg1 (by decide)).trans <|
  (W3_of m c main_arg1 (by decide)).trans (W2_arg1 m c)
theorem W7_arg2 : W7 m c (Proc.devRef .tc main_arg2) = m ((c : Thread nD τ).loc main_arg2) :=
  (W7_of m c main_arg2 (by decide)).trans <| (W6_of_ne m c main_arg2 (by decide)).trans <|
  (W5_of m c main_arg2 (by decide)).trans <| (W4_of_ne m c main_arg2 (by decide)).trans <|
  (W3_of m c main_arg2 (by decide)).trans <| (W2_of_ne m c main_arg2 (by decide)).trans <|
  (W1_of m c main_arg2 (by decide)).trans rfl
theorem W7_arg3 : W7 m c (Proc.devRef .tc main_arg3) = m ((c : Thread nD τ).loc main_arg3) :=
  (W7_of m c main_arg3 (by decide)).trans <| (W6_of_ne m c main_arg3 (by decide)).trans <|
  (W5_of m c main_arg3 (by decide)).trans (W4_arg3 m c)
/-- The bias is an array the output projection reads through an input window: such an array is never written back. -/
theorem W6_arg4 : W6 m c (Proc.devRef .tc main_arg4) = W5 m c (Proc.devRef .tc main_arg4) :=
  (W6_arr m c 2).trans <| ((Reg2.dat (U5 m) c).arrAt_in 2 rfl _).trans (Reg2.A_eq (U5 m) c 2)
theorem W7_arg4 : W7 m c (Proc.devRef .tc main_arg4) = m ((c : Thread nD τ).loc main_arg4) :=
  (W7_of m c main_arg4 (by decide)).trans <| (W6_arg4 m c).trans <|
  (W5_of m c main_arg4 (by decide)).trans (W4_arg4 m c)

/-! ## What the host stretches compute -/

/-- The first stretch: the activations flattened, the input weights narrowed. -/
theorem W1_v0 : W1 m c (Proc.devRef .tc main_v0) = shapeCast S8192x1024 (m ((c : Thread nD τ).loc main_arg0)) shapeCasts_S4x2048x1024_S8192x1024 := by
  show StableHlo.after hostOps0 (W0 m c) (Proc.devRef .tc main_v0) = _
  after_results
  rfl
theorem W1_v1 : W1 m c (Proc.devRef .tc main_v1) = truncf .bf16 (m ((c : Thread nD τ).loc main_arg2)) bitsLt_bf16_f32 := by
  show StableHlo.after hostOps0 (W0 m c) (Proc.devRef .tc main_v1) = _
  after_results
/-- The second: the projection's result unflattened, the mask integers reshaped. -/
theorem W3_v3 : W3 m c (Proc.devRef .tc main_v3) = shapeCast S4x2048x3072 ((Reg0.dat (U1 m) c).arrAt 2 cfg0.N) shapeCasts_S8192x3072_S4x2048x3072 := by
  show StableHlo.after hostOps1 (W2 m c) (Proc.devRef .tc main_v3) = _
  after_results
  rw [show W2 m c (Proc.devRef .tc main_v2) = (Reg0.dat (U1 m) c).arrAt 2 cfg0.N from W2_arr m c 2]
  rfl
theorem W3_v4 : W3 m c (Proc.devRef .tc main_v4) = shapeCast S4x1x2048 (m ((c : Thread nD τ).loc main_arg1)) shapeCasts_S4x2048_S4x1x2048 := by
  show StableHlo.after hostOps1 (W2 m c) (Proc.devRef .tc main_v4) = _
  after_results
  rw [W2_arg1 m c]
  rfl
/-- The third: attention's result flattened, the output weights narrowed; the bias untouched. -/
theorem W5_v6 : W5 m c (Proc.devRef .tc main_v6) = shapeCast S8192x1024 ((Reg1.dat (U3 m) c).arrAt 4 cfg1.N) shapeCasts_S4x2048x1024_S8192x1024 := by
  show StableHlo.after hostOps2 (W4 m c) (Proc.devRef .tc main_v6) = _
  after_results
  rw [W4_out m c]
  rfl
theorem W5_v7 : W5 m c (Proc.devRef .tc main_v7) = truncf .bf16 (m ((c : Thread nD τ).loc main_arg3)) bitsLt_bf16_f32 := by
  show StableHlo.after hostOps2 (W4 m c) (Proc.devRef .tc main_v7) = _
  after_results
  rw [W4_arg3 m c]
theorem W5_arg4 : W5 m c (Proc.devRef .tc main_arg4) = m ((c : Thread nD τ).loc main_arg4) :=
  (W5_of m c main_arg4 (by decide)).trans (W4_arg4 m c)
/-- The last: the output projection's result unflattened. -/
theorem W7_v9 : W7 m c (Proc.devRef .tc main_v9) = shapeCast S4x2048x1024 ((Reg2.dat (U5 m) c).arrAt 3 cfg2.N) shapeCasts_S8192x1024_S4x2048x1024 := by
  show StableHlo.after hostOps3 (W6 m c) (Proc.devRef .tc main_v9) = _
  after_results
  rw [show W6 m c (Proc.devRef .tc main_v8) = (Reg2.dat (U5 m) c).arrAt 3 cfg2.N from W6_arr m c 3]
  rfl

end Cert.KernelIdeal.HostVals

end
-- ==== Proof.Spec.lean ====
/-
  The mathematics both programs compute, written once over the extended reals with explicit coordinates.
  Multi-head self-attention with an additive padding mask:
    qkv[b, n, e]   = Σ_d x[b, n, d] · w_in[e, d]                            (e < 3072: queries, keys, values side by side)
    s[b, h, q, κ]  = ((Σ_j qkv[b, q, 64h + j] · qkv[b, κ, 1024 + 64h + j]) + ids[b, κ] · (−10⁹)) · ⅛
    m[b, h, q]     = the maximum of s[b, h, q, ·], folded from −∞
    p[b, h, q, κ]  = exp(s[b, h, q, κ] − m[b, h, q]),   l[b, h, q] = Σ_κ p[b, h, q, κ]
    a[b, q, 64h+j] = (Σ_κ p[b, h, q, κ] · qkv[b, κ, 2048 + 64h + j]) / l[b, h, q]        — one program's order
                   = Σ_κ (p[b, h, q, κ] / l[b, h, q]) · qkv[b, κ, 2048 + 64h + j]        — the other's
    out[b, n, e]   = (Σ_c a[b, n, c] · w_out[e, c]) + bias[e]
  The two orders of the division agree where every entry is a real number and l ≠ 0 (it is a sum of exponentials).
-/
import Idealize.ShloMosaic.PureOps.Ideal
import Idealize.ShloMosaic.PureOps.Ideal.Laws

noncomputable section

namespace Cert.Spec

open Idealize.ShloMosaic
open scoped BigOperators

/-- Column `64h + j` of third `s` (0 queries, 1 keys, 2 values) of the projected activations. -/
def col (s : Fin 3) (h : Fin 16) (j : Fin 64) : Fin 3072 := ⟨1024 * s.val + 64 * h.val + j.val, by omega⟩
/-- Column `64h + j` of the attention output. -/
def hcol (h : Fin 16) (j : Fin 64) : Fin 1024 := ⟨64 * h.val + j.val, by omega⟩

/-- The mask's weight −10⁹, the scale ⅛, and −∞, as the float words both programs carry. -/
abbrev negBig : EReal := Ideal.ofBits .f32 0xCE6E6B28#32
abbrev eighth : EReal := Ideal.ofBits .f32 0x3E000000#32
abbrev negInf : EReal := Ideal.ofBits .f32 0xFF800000#32

/-- A projection `x · wᵀ`: `Σ_d x[b, n, d] · w[e, d]`. -/
def proj {E : ℕ} (x : Fin 4 → Fin 2048 → Fin 1024 → EReal) (w : Fin E → Fin 1024 → EReal) (b : Fin 4) (n : Fin 2048) (e : Fin E) : EReal :=
  ∑ d : Fin 1024, x b n d * w e d

section Attention

variable (Q : Fin 4 → Fin 2048 → Fin 3072 → EReal) (ids : Fin 4 → Fin 2048 → BitVec 32)

/-- The masked, scaled score of query `q` against key `κ` in head `h`. -/
def score (b : Fin 4) (h : Fin 16) (q κ : Fin 2048) : EReal :=
  ((∑ j : Fin 64, Q b q (col 0 h j) * Q b κ (col 1 h j)) + (((ids b κ).toInt : ℝ) : EReal) * negBig) * eighth
/-- A row's maximum, folded from −∞. -/
def rowMax (b : Fin 4) (h : Fin 16) (q : Fin 2048) : EReal :=
  (Finset.univ : Finset (Fin 2048)).fold max negInf fun κ => score Q ids b h q κ
/-- The exponentials and their sum. -/
def pexp (b : Fin 4) (h : Fin 16) (q κ : Fin 2048) : EReal := Ideal.exp (score Q ids b h q κ - rowMax Q ids b h q)
def den (b : Fin 4) (h : Fin 16) (q : Fin 2048) : EReal := ∑ κ : Fin 2048, pexp Q ids b h q κ
/-- Attention's output, the weighted sum divided once (the kernel's order), -/
def attnK (b : Fin 4) (q : Fin 2048) (h : Fin 16) (j : Fin 64) : EReal :=
  Ideal.div (∑ κ : Fin 2048, pexp Q ids b h q κ * Q b κ (col 2 h j)) (den Q ids b h q)
/-- and with every weight divided first (the reference's order). -/
def attnR (b : Fin 4) (q : Fin 2048) (h : Fin 16) (j : Fin 64) : EReal :=
  ∑ κ : Fin 2048, Ideal.div (pexp Q ids b h q κ) (den Q ids b h q) * Q b κ (col 2 h j)

end Attention

/-- The output projection with its bias: `(Σ_c a[b, n, c] · w[e, c]) + bias[e]`. -/
def outp (a : Fin 4 → Fin 2048 → Fin 1024 → EReal) (w : Fin 1024 → Fin 1024 → EReal) (bias : Fin 1024 → EReal)
    (b : Fin 4) (n : Fin 2048) (e : Fin 1024) : EReal :=
  proj a w b n e + bias e

/-- Head and lane of an output column. -/
def headOf (c : Fin 1024) : Fin 16 := ⟨c.val / 64, by omega⟩
def laneOf (c : Fin 1024) : Fin 64 := ⟨c.val % 64, by omega⟩
theorem hcol_head_lane (c : Fin 1024) : hcol (headOf c) (laneOf c) = c := by
  apply Fin.ext; show 64 * (c.val / 64) + c.val % 64 = c.val; omega

/-- The whole function, in the kernel's order and in the reference's. -/
def wholeK (x : Fin 4 → Fin 2048 → Fin 1024 → EReal) (ids : Fin 4 → Fin 2048 → BitVec 32) (win : Fin 3072 → Fin 1024 → EReal)
    (wout : Fin 1024 → Fin 1024 → EReal) (bias : Fin 1024 → EReal) : Fin 4 → Fin 2048 → Fin 1024 → EReal :=
  outp (fun b n c => attnK (proj x win) ids b n (headOf c) (laneOf c)) wout bias
def wholeR (x : Fin 4 → Fin 2048 → Fin 1024 → EReal) (ids : Fin 4 → Fin 2048 → BitVec 32) (win : Fin 3072 → Fin 1024 → EReal)
    (wout : Fin 1024 → Fin 1024 → EReal) (bias : Fin 1024 → EReal) : Fin 4 → Fin 2048 → Fin 1024 → EReal :=
  outp (fun b n c => attnR (proj x win) ids b n (headOf c) (laneOf c)) wout bias

end Cert.Spec

end
-- ==== Proof.KI.Val0.lean ====
/-
  What the QKV projection (region 0) leaves in its output array, at the extended reals: entry (r, e) of the flattened
  projected activations is the sum over d of the flattened activations' entry (r, d) times the narrowed input weights'
  entry (e, d). A point's block is the product of the point's 512 rows with the whole weight matrix; the 16 blocks tile
  the array.
-/
import proofs.«400423_j83313775608371_3_alg».proof.Proof.KI.Reg0
import proofs.«400423_j83313775608371_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Idealize.ShloMosaic Idealize.ShloMosaic.TcCoe Idealize.ShloMosaic.ValueIdx Idealize.SL.Sem
open scoped BigOperators

open Cert.KernelIdeal Cert.KernelIdeal.Gen

variable (V : (c : Dev nD) → (b : Ref sig .tc) → Buf (Elt Ideal) ((c : Thread nD τ).loc b))

/-- The flattened activations and the narrowed input weights as the region finds them. -/
def xin (c : Dev nD) : S8192x1024.Idx → EReal := V c main_v0
def win (c : Dev nD) : S3072x1024.Idx → EReal := V c main_v1

/-- The whole projected array: `Σ_d x[r, d] · w[e, d]`. -/
def G (c : Dev nD) : S8192x3072.Idx → EReal := fun i => ∑ d : Fin 1024, xin V c (ix2 (i 0) d) * win V c (ix2 (i 1) d)

/-! ## The body's product at an index -/

theorem lhs_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The body's payload at an index: the contraction over the 1024 columns (the changes of float format are the identity
    on the extended reals, and the accumulator is zero). -/
theorem pay_apply (x0 : Vec Ideal S512x1024 .f32) (x1 : Vec Ideal S3072x1024 .bf16) (y : S512x3072.Idx) :
    k0_pay1 (F := Ideal) x0 x1 y = ∑ d : Fin 1024, x0 (ix2 (y 0) d) * x1 (ix2 (y 1) d) := by
  unfold k0_pay1
  simp only [shapeCast_self, truncf, Ideal.truncf_def, matmul]
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx y ((ValueIdx.contrEquiv1 dot_S512x1024_S3072x1024_S512x3072_1_1_0_0_n_n 1024 rfl rfl).symm k) = ix2 (y 0) k := funext fun a => Fin.ext (by
    match a with
    | ⟨0, _⟩ => exact lhs_0 _ _
    | ⟨1, _⟩ => exact (lhs_1 _ _).trans hk)
  have er : dot_S512x1024_S3072x1024_S512x3072_1_1_0_0_n_n.rhsIdx y ((ValueIdx.contrEquiv1 dot_S512x1024_S3072x1024_S512x3072_1_1_0_0_n_n 1024 rfl rfl).symm k) = ix2 (y 1) k := funext fun a => Fin.ext (by
    match a with
    | ⟨0, _⟩ => exact rhs_0 _ _
    | ⟨1, _⟩ => exact (rhs_1 _ _).trans hk)
  rw [el, er]
  rfl

/-! ## From the blocks to the array -/

theorem hz : (![0, 0] : Fin 2 → Nat) = fun _ => 0 := funext fun a => by fin_cases a <;> rfl

/-- The windows' block indices at a point: the activations' rows move with the output's, nothing else moves. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the whole projected array. -/
theorem flushed_eq (c : Dev nD) (t : Fin cfg0.N) :
    (Reg0.dat (F := Ideal) V c).flushed 2 t = ((cfg0.win 2).blk t).view.read (Elt Ideal) (G V c) := by
  show (cfg0.win 2).cut (grid0.coords t) ((Reg0.dat (F := Ideal) V c).after 2 t) = _
  rw [Reg0.after_2]
  unfold Reg0.out2
  rw [View.canon_unit_zero hz]
  simp only [View.ld_unit_zero (S := S512x1024) hz, View.ld_unit_zero (S := S3072x1024) hz]
  obtain ⟨e0, e1, e2, e3, e4, e5⟩ := idx_facts t
  funext j
  show k0_pay1 (F := Ideal) (Reg0.iblk V c 0 t) (Reg0.iblk V c 1 t) j = G V c (((cfg0.win 2).blk t).view.emb j)
  rw [pay_apply]
  unfold G
  refine Finset.sum_congr rfl fun d _ => ?_
  show xin V c (((cfg0.win 0).blk t).view.emb (ix2 (j 0) d)) * win V c (((cfg0.win 1).blk t).view.emb (ix2 (j 1) d))
    = xin V c (ix2 ((((cfg0.win 2).blk t).view.emb j) 0) d) * win V c (ix2 ((((cfg0.win 2).blk t).view.emb j) 1) d)
  have h0 : ((cfg0.win 0).blk t).view.emb (ix2 (j 0) d) = ix2 ((((cfg0.win 2).blk t).view.emb j) 0) d := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * d.val = d.val; omega
  have h1 : ((cfg0.win 1).blk t).view.emb (ix2 (j 1) d) = ix2 ((((cfg0.win 2).blk t).view.emb j) 1) d := by
    funext a; apply Fin.ext
    match a with
    | ⟨0, _⟩ => show win0_1.index t (0 : Fin 2) * 3072 + 1 * (j 1).val = win0_2.index t (1 : Fin 2) * 3072 + 1 * (j 1).val; omega
    | ⟨1, _⟩ => show win0_1.index t (1 : Fin 2) * 1024 + 1 * d.val = d.val; omega
  rw [h0, h1]
  rfl

/-- An index of the array is in point `t`'s block iff each coordinate is in the block's range on its axis. -/
theorem mem_blk (t : Fin cfg0.N) (i : S8192x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v2).slice (win0_2.rect t)).set ↔ _
  rw [View.set_slice_whole, Rect.mem_set_unit]
  exact Iff.rfl

/-- Every index is in the block of the point that holds its row. -/
theorem cover (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  let t : Fin cfg0.N := ⟨(i 0).val / 512, by rw [show cfg0.N = 16 from N_0]; omega⟩
  obtain ⟨e0, e1, e2, e3, e4, e5⟩ := idx_facts t
  have e5' : win0_2.index t (0 : Fin 2) = (i 0).val / 512 := e5
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The array after the region is the whole projected array. -/
theorem arr_eq (c : Dev nD) : (Reg0.dat (F := Ideal) V c).arrAt 2 cfg0.N = G V c :=
  (Reg0.dat (F := Ideal) V c).arrAt_eq_of_cover 2 (G V c) (fun t _ => flushed_eq V c t) (cover)

/-- The array after the region, at an index. -/
theorem final (c : Dev nD) (r : Fin 8192) (e : Fin 3072) :
    ((Reg0.dat (F := Ideal) V c).arrAt 2 cfg0.N : S8192x3072.Idx → EReal) (ix2 r e)
      = ∑ d : Fin 1024, xin V c (ix2 r d) * win V c (ix2 e d) := by
  rw [arr_eq]; rfl

end Cert.KernelIdeal.Val0

end
-- ==== Proof.KI.Val1.lean ====
/-
  What attention (region 1) leaves in its output array, at the extended reals: entry (b, n, c) of the array after the
  region's 128 write-backs is the specification's attention output of batch b, query n, head c / 64, lane c % 64, computed
  from the projected activations and the mask integers as the region found them.
-/
import proofs.«400423_j83313775608371_3_alg».proof.Proof.KI.Reg1
import proofs.«400423_j83313775608371_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Idealize.ShloMosaic Idealize.ShloMosaic.TcCoe Idealize.ShloMosaic.ValueIdx Idealize.SL.Sem
open scoped BigOperators

open Cert.KernelIdeal Cert.KernelIdeal.Gen

/-- Dropping the block's leading unit axis keeps the other two coordinates. -/
theorem pay3_apply (x : Vec Ideal S1x512x128 .bf16) (r : Fin 512) (c : Fin 128) :
    k1_pay3 (F := Ideal) x (ix2 r c) = x (ix3 0 r c) := by
  unfold k1_pay3
  exact shapeCast_apply x shapeCasts_S1x512x128_S512x128 (ix2 r c) (ix3 0 r c)
    (by rw [Shape.rowMajor_val_three, Shape.rowMajor_val_two]; show ((0:ℕ) * 512 + r.val) * 128 + c.val = r.val * 128 + c.val; omega)

theorem pay4_apply (x : Vec Ideal S1x2048x128 .bf16) (κ : Fin 2048) (c : Fin 128) :
    k1_pay4 (F := Ideal) x (ix2 κ c) = x (ix3 0 κ c) := by
  unfold k1_pay4
  exact shapeCast_apply x shapeCasts_S1x2048x128_S2048x128 (ix2 κ c) (ix3 0 κ c)
    (by rw [Shape.rowMajor_val_three, Shape.rowMajor_val_two]; show ((0:ℕ) * 2048 + κ.val) * 128 + c.val = κ.val * 128 + c.val; omega)

theorem pay5_apply (x : Vec Ideal S1x2048x128 .bf16) (κ : Fin 2048) (c : Fin 128) :
    k1_pay5 (F := Ideal) x (ix2 κ c) = x (ix3 0 κ c) := by
  unfold k1_pay5
  exact shapeCast_apply x shapeCasts_S1x2048x128_S2048x128 (ix2 κ c) (ix3 0 κ c)
    (by rw [Shape.rowMajor_val_three, Shape.rowMajor_val_two]; show ((0:ℕ) * 2048 + κ.val) * 128 + c.val = κ.val * 128 + c.val; omega)

/-- The mask's row: the integer read signed, times the weight. -/
theorem pay2_apply (x : Vec Ideal S1x1x2048 .i32) (κ : Fin 2048) :
    k1_pay2 (F := Ideal) x (ix2 0 κ) = (((x (ix3 0 0 κ)).toInt : ℝ) : EReal) * Spec.negBig := by
  unfold k1_pay2
  show (((shapeCast S1x2048 x shapeCasts_S1x1x2048_S1x2048 (ix2 0 κ)).toInt : ℝ) : EReal) * Spec.negBig = _
  rw [shapeCast_apply x shapeCasts_S1x1x2048_S1x2048 (ix2 0 κ) (ix3 0 0 κ)
    (by rw [Shape.rowMajor_val_three, Shape.rowMajor_val_two]; show ((0:ℕ) * 1 + 0) * 2048 + κ.val = 0 * 2048 + κ.val; omega)]

/-! ## The two products read at an index

The scores' product contracts the lane axis of both operands (a row of queries against a row of keys); the weighted
sum's contracts the key axis (a row of weights against a column of values). -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- A row of queries against a row of keys: the sum over the 64 lanes. -/
theorem qk_apply (a : FVec Ideal S512x64 .bf16) (b : FVec Ideal S2048x64 .bf16) (r : Fin 512) (κ : Fin 2048) :
    matmul dot_S512x64_S2048x64_S512x2048_1_1_0_0_n_n none a b (constant (F := Ideal) S512x2048 .f32 0x00000000#32) (ix2 r κ)
      = ∑ j : Fin 64, a (ix2 r j) * b (ix2 κ j) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r κ) ((contrEquiv1 dot_S512x64_S2048x64_S512x2048_1_1_0_0_n_n 64 rfl rfl).symm k) = ix2 r k := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 r κ) ((contrEquiv1 dot_S512x64_S2048x64_S512x2048_1_1_0_0_n_n 64 rfl rfl).symm k) = ix2 κ k := funext fun a => Fin.ext (by
    match a with
    | ⟨0, _⟩ => exact rhs_qk_0 _ _
    | ⟨1, _⟩ => exact (rhs_qk_1 _ _).trans hk)
  rw [el, er]

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- A row of weights against a column of values: the sum over the 2048 keys. -/
theorem pv_apply (a : FVec Ideal S512x2048 .bf16) (b : FVec Ideal S2048x64 .bf16) (r : Fin 512) (j : Fin 64) :
    matmul dot_S512x2048_S2048x64_S512x64_1_0_0_1_n_n none a b (constant (F := Ideal) S512x64 .f32 0x00000000#32) (ix2 r j)
      = ∑ κ : Fin 2048, a (ix2 r κ) * b (ix2 κ j) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r j) ((contrEquiv1 dot_S512x2048_S2048x64_S512x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r j) ((contrEquiv1 dot_S512x2048_S2048x64_S512x64_1_0_0_1_n_n 2048 rfl rfl).symm k) = ix2 k j := funext fun a => Fin.ext (by
    match a with
    | ⟨0, _⟩ => exact (rhs_pv_0 _ _).trans hk
    | ⟨1, _⟩ => exact rhs_pv_1 _ _)
  rw [el, er]

/-! ## Slices, broadcasts and the two row reductions, read at an index -/

/-- Lane `j` of the 64-lane half at offset `o` of a 128-lane row. -/
def lane (o : Nat) (ho : o + 64 ≤ 128) (j : Fin 64) : Fin 128 := ⟨o + j.val, by have := j.isLt; omega⟩

/-- The left or right 64 lanes of a 128-lane array: lane `j` of the slice at offset `o` is lane `o + j`. -/
theorem sliceQ_apply {α : Type} (off : Fin 2 → Nat) (o : Nat) (ho : o + 64 ≤ 128) (h0 : off 0 = 0) (h1 : off 1 = o) (h : S512x128.Slices off S512x64)
    (x : S512x128.Idx → α) (r : Fin 512) (j : Fin 64) :
    extractStridedSlice S512x64 off x h (ix2 r j) = x (ix2 r (lane o ho j)) :=
  extractStridedSlice_apply off x h (ix2 r j) (ix2 r (lane o ho j)) (fun a => by
    match a with
    | ⟨0, _⟩ => show r.val = off 0 + r.val; rw [h0]; omega
    | ⟨1, _⟩ => show o + j.val = off 1 + j.val; rw [h1])

theorem sliceK_apply {α : Type} (off : Fin 2 → Nat) (o : Nat) (ho : o + 64 ≤ 128) (h0 : off 0 = 0) (h1 : off 1 = o) (h : S2048x128.Slices off S2048x64)
    (x : S2048x128.Idx → α) (κ : Fin 2048) (j : Fin 64) :
    extractStridedSlice S2048x64 off x h (ix2 κ j) = x (ix2 κ (lane o ho j)) :=
  extractStridedSlice_apply off x h (ix2 κ j) (ix2 κ (lane o ho j)) (fun a => by
    match a with
    | ⟨0, _⟩ => show κ.val = off 0 + κ.val; rw [h0]; omega
    | ⟨1, _⟩ => show o + j.val = off 1 + j.val; rw [h1])

/-- The mask's one row, repeated down the 512 queries. -/
theorem bcastRow_apply {α : Type} (m : S1x2048.Idx → α) (r : Fin 512) (κ : Fin 2048) :
    broadcastTo S512x2048 m broadcasts_S1x2048_S512x2048 (ix2 r κ) = m (ix2 0 κ) :=
  broadcastTo_apply m broadcasts_S1x2048_S512x2048 (ix2 r κ) (ix2 0 κ) (fun a => by
    match a with
    | ⟨0, _⟩ => rfl
    | ⟨1, _⟩ => rfl)

/-- A column of per-query numbers, repeated along the keys, -/
theorem bcastColK_apply {α : Type} (c : S512x1.Idx → α) (r : Fin 512) (κ : Fin 2048) :
    broadcastTo S512x2048 c broadcasts_S512x1_S512x2048 (ix2 r κ) = c (ix2 r 0) :=
  broadcastTo_apply c broadcasts_S512x1_S512x2048 (ix2 r κ) (ix2 r 0) (fun a => by
    match a with
    | ⟨0, _⟩ => rfl
    | ⟨1, _⟩ => rfl)

/-- and along the lanes. -/
theorem bcastColJ_apply {α : Type} (c : S512x1.Idx → α) (r : Fin 512) (j : Fin 64) :
    broadcastTo S512x64 c broadcasts_S512x1_S512x64 (ix2 r j) = c (ix2 r 0) :=
  broadcastTo_apply c broadcasts_S512x1_S512x64 (ix2 r j) (ix2 r 0) (fun a => by
    match a with
    | ⟨0, _⟩ => rfl
    | ⟨1, _⟩ => rfl)

/-- A vector of 512 numbers as a column. -/
theorem col_apply {α : Type} (v : S512.Idx → α) (r : Fin 512) :
    shapeCast S512x1 v shapeCasts_S512_S512x1 (ix2 r 0) = v (ix1 r) :=
  shapeCast_apply v shapeCasts_S512_S512x1 (ix2 r 0) (ix1 r)
    (by rw [Shape.rowMajor_val_one, Shape.rowMajor_val_two]; show r.val = r.val * 1 + 0; omega)

/-- The reduced index with the key's coordinate put back. -/
theorem lift_row (r : Fin 512) (κ : Fin 2048) :
    reduces_S512x2048_S512.lift (ix1 r) κ = ix2 r κ :=
  funext fun a => Fin.ext (by
    match a with
    | ⟨0, _⟩ => rfl
    | ⟨1, _⟩ => rfl)

/-- A row's maximum: the fold of `max` from −∞ over the 2048 keys. -/
theorem rowMax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max Spec.negInf fun κ => s (ix2 r κ) := by
  refine (Ideal.multiReduction_maximumf_single s 0xFF800000#32 reduces_S512x2048_S512 (.inl rfl) rfl (ix1 r)).trans ?_
  show (Finset.univ : Finset (Fin 2048)).fold max Spec.negInf (s ∘ reduces_S512x2048_S512.lift (ix1 r)) = _
  exact congrArg (fun f : Fin 2048 → EReal => (Finset.univ : Finset (Fin 2048)).fold max Spec.negInf f)
    (funext fun κ => congrArg s (lift_row r κ))

/-- A row's sum over the 2048 keys. -/
theorem rowSum_apply (p : FVec Ideal S512x2048 .f32) (r : Fin 512) :
    multiReduction (F := Ideal) .add [1] S512 p 0x00000000#32 reduces_S512x2048_S512 (.inl rfl) rfl (ix1 r)
      = ∑ κ : Fin 2048, p (ix2 r κ) := by
  refine (Ideal.multiReduction_add_single p 0x00000000#32 reduces_S512x2048_S512 (.inl rfl) rfl (ix1 r)).trans ?_
  show ∑ κ : Fin 2048, p (reduces_S512x2048_S512.lift (ix1 r) κ) = _
  exact Finset.sum_congr rfl fun κ _ => congrArg p (lift_row r κ)

/-! ## One head's softmax and weighted sum, as the body spells it

The body computes each of its two heads by the same operations on the head's scaled scores `s` (512 queries by 2048
keys) and the head's values `vs` (2048 keys by 64 lanes). -/

/-- The scores before the scale: the product of queries and keys plus the mask's row. -/
def logits (x3 : Vec Ideal S1x1x2048 .i32) (qs : FVec Ideal S512x64 .bf16) (ks : FVec Ideal S2048x64 .bf16) : FVec Ideal S512x2048 .f32 :=
  addf (matmul dot_S512x64_S2048x64_S512x2048_1_1_0_0_n_n none qs ks (constant (F := Ideal) S512x2048 .f32 0x00000000#32))
    (broadcastTo S512x2048 (k1_pay2 (F := Ideal) x3) broadcasts_S1x2048_S512x2048)

/-- Each row's maximum, repeated along the row. -/
def rowMaxV (s : FVec Ideal S512x2048 .f32) : FVec Ideal S512x2048 .f32 :=
  broadcastTo S512x2048 (shapeCast S512x1 (multiReduction (F := Ideal) .maximumf [1] S512 s 0xFF800000#32 reduces_S512x2048_S512 (.inl rfl) rfl)
    shapeCasts_S512_S512x1) broadcasts_S512x1_S512x2048

/-- The exponentials of the scores less their row's maximum. -/
def expV (s : FVec Ideal S512x2048 .f32) : FVec Ideal S512x2048 .f32 := exp (subf s (rowMaxV s))

/-- Each row's sum, repeated along the 64 lanes. -/
def denV (p : FVec Ideal S512x2048 .f32) : FVec Ideal S512x64 .f32 :=
  broadcastTo S512x64 (shapeCast S512x1 (multiReduction (F := Ideal) .add [1] S512 p 0x00000000#32 reduces_S512x2048_S512 (.inl rfl) rfl)
    shapeCasts_S512_S512x1) broadcasts_S512x1_S512x64

/-- The head's output: the exponentials times the values, divided by the row's sum. -/
def headOut (s : FVec Ideal S512x2048 .f32) (vs : FVec Ideal S2048x64 .bf16) : FVec Ideal S512x64 .bf16 :=
  truncf .bf16 (divf (matmul dot_S512x2048_S2048x64_S512x64_1_0_0_1_n_n none (truncf .bf16 (expV s) bitsLt_bf16_f32) vs
    (constant (F := Ideal) S512x64 .f32 0x00000000#32)) (denV (expV s))) bitsLt_bf16_f32

theorem logits_apply (x3 : Vec Ideal S1x1x2048 .i32) (qs : FVec Ideal S512x64 .bf16) (ks : FVec Ideal S2048x64 .bf16) (r : Fin 512) (κ : Fin 2048) :
    logits x3 qs ks (ix2 r κ) = (∑ j : Fin 64, qs (ix2 r j) * ks (ix2 κ j)) + (((x3 (ix3 0 0 κ)).toInt : ℝ) : EReal) * Spec.negBig := by
  unfold logits
  rw [addf_apply, qk_apply, bcastRow_apply, pay2_apply]

theorem rowMaxV_apply (s : FVec Ideal S512x2048 .f32) (r : Fin 512) (κ : Fin 2048) :
    rowMaxV s (ix2 r κ) = (Finset.univ : Finset (Fin 2048)).fold max Spec.negInf fun κ' => s (ix2 r κ') := by
  unfold rowMaxV
  rw [bcastColK_apply, col_apply, rowMax_apply]

theorem expV_apply (s : FVec Ideal S512x2048 .f32) (r : Fin 512) (κ : Fin 2048) :
    expV s (ix2 r κ) = Ideal.exp (s (ix2 r κ) - (Finset.univ : Finset (Fin 2048)).fold max Spec.negInf fun κ' => s (ix2 r κ')) := by
  unfold expV
  show Ideal.exp (s (ix2 r κ) - rowMaxV s (ix2 r κ)) = _
  rw [rowMaxV_apply]

theorem denV_apply (p : FVec Ideal S512x2048 .f32) (r : Fin 512) (j : Fin 64) :
    denV p (ix2 r j) = ∑ κ : Fin 2048, p (ix2 r κ) := by
  unfold denV
  rw [bcastColJ_apply, col_apply, rowSum_apply]

theorem headOut_apply (s : FVec Ideal S512x2048 .f32) (vs : FVec Ideal S2048x64 .bf16) (r : Fin 512) (j : Fin 64) :
    headOut s vs (ix2 r j) = Ideal.div (∑ κ : Fin 2048, expV s (ix2 r κ) * vs (ix2 κ j)) (∑ κ : Fin 2048, expV s (ix2 r κ)) := by
  unfold headOut
  rw [truncf_apply, divf_apply, pv_apply, denV_apply]
  rfl

/-! ## The body's payloads as those operations -/

/-- The eighth, as the body's scalar. -/
abbrev eighthS : Ideal .f32 := Scalar.ofBits (F := Ideal) .f32 0x3E000000#32

theorem pay6_eq (x3 : Vec Ideal S1x1x2048 .i32) (x0 : Vec Ideal S1x512x128 .bf16) (x1 x2 : Vec Ideal S1x2048x128 .bf16) :
    k1_pay6 (F := Ideal) x3 x0 x1 x2
      = headOut (mulf (logits x3 (extractStridedSlice S512x64 ![0, 0] (k1_pay3 (F := Ideal) x0) slices_S512x128_o0_0_S512x64)
            (extractStridedSlice S2048x64 ![0, 0] (k1_pay4 (F := Ideal) x1) slices_S2048x128_o0_0_S2048x64)) (broadcast S512x2048 eighthS))
          (extractStridedSlice S2048x64 ![0, 0] (k1_pay5 (F := Ideal) x2) slices_S2048x128_o0_0_S2048x64) := by
  unfold k1_pay6 headOut expV denV rowMaxV logits
  rfl

theorem pay8_eq (x3 : Vec Ideal S1x1x2048 .i32) (x0 : Vec Ideal S1x512x128 .bf16) (x1 : Vec Ideal S1x2048x128 .bf16) :
    k1_pay8 (F := Ideal) x3 x0 x1
      = logits x3 (extractStridedSlice S512x64 ![0, 64] (k1_pay3 (F := Ideal) x0) slices_S512x128_o0_64_S512x64)
          (extractStridedSlice S2048x64 ![0, 64] (k1_pay4 (F := Ideal) x1) slices_S2048x128_o0_64_S2048x64) := by
  unfold k1_pay8 logits
  rfl

/-- The store's payload: the first head's output beside the second's, under a leading unit axis. -/
theorem pay1_eq (v30 : FVec Ideal S512x64 .bf16) (v33 : FVec Ideal S2048x64 .bf16) (v36 : FVec Ideal S512x2048 .f32) (cst : Ideal .f32) :
    k1_pay1 (F := Ideal) v30 v33 v36 cst
      = shapeCast S1x512x128 (concatenate S512x128 1 [⟨S512x64, v30⟩, ⟨S512x64, headOut (mulf v36 (broadcast S512x2048 cst)) v33⟩]
          concatenates_S512x64_S512x64_S512x128_d1) shapeCasts_S512x128_S1x512x128 := by
  unfold k1_pay1 headOut expV denV rowMaxV
  rfl

/-- Adding the block's leading unit axis keeps the other two coordinates. -/
theorem addUnit_apply {α : Type} (v : S512x128.Idx → α) (r : Fin 512) (l : Fin 128) :
    shapeCast S1x512x128 v shapeCasts_S512x128_S1x512x128 (ix3 0 r l) = v (ix2 r l) :=
  shapeCast_apply v shapeCasts_S512x128_S1x512x128 (ix3 0 r l) (ix2 r l)
    (by rw [Shape.rowMajor_val_three, Shape.rowMajor_val_two]; show r.val * 128 + l.val = ((0:ℕ) * 512 + r.val) * 128 + l.val; omega)

/-- Two 64-lane arrays side by side: the first 64 lanes are the first array's, -/
theorem concat_left {α : Type} (a b : S512x64.Idx → α) (r : Fin 512) (j : Fin 64) (l : Fin 128) (hl : l.val = j.val) :
    concatenate S512x128 1 [⟨S512x64, a⟩, ⟨S512x64, b⟩] concatenates_S512x64_S512x64_S512x128_d1 (ix2 r l) = a (ix2 r j) :=
  concatenate_pair_apply_left (1 : Fin S512x128.rank) a b concatenates_S512x64_S512x64_S512x128_d1 (ix2 r l) rfl (ix2 r j) (fun c => by
    match c with
    | ⟨0, _⟩ => rfl
    | ⟨1, _⟩ => exact hl.symm)

/-- the last 64 the second's. -/
theorem concat_right {α : Type} (a b : S512x64.Idx → α) (r : Fin 512) (j : Fin 64) (l : Fin 128) (hl : l.val = 64 + j.val) :
    concatenate S512x128 1 [⟨S512x64, a⟩, ⟨S512x64, b⟩] concatenates_S512x64_S512x64_S512x128_d1 (ix2 r l) = b (ix2 r j) :=
  concatenate_pair_apply_right (1 : Fin S512x128.rank) a b concatenates_S512x64_S512x64_S512x128_d1 (ix2 r l) rfl rfl (ix2 r j) (fun c hc => by
    match c with
    | ⟨0, _⟩ => rfl
    | ⟨1, _⟩ => exact absurd rfl hc) (by show j.val + 64 = l.val; omega)

/-! ## A block's element as the attention of one query row -/

/-- The masked, scaled score of one query row against key `κ`: from the row's 64 lanes `q`, the keys' lanes `K` and the mask integers `w`. -/
def rowScore (q : Fin 64 → EReal) (K : Fin 2048 → Fin 64 → EReal) (w : Fin 2048 → BitVec 32) (κ : Fin 2048) : EReal :=
  ((∑ j : Fin 64, q j * K κ j) + (((w κ).toInt : ℝ) : EReal) * Spec.negBig) * Spec.eighth
/-- Its exponential less the row's maximum. -/
def rowExp (q : Fin 64 → EReal) (K : Fin 2048 → Fin 64 → EReal) (w : Fin 2048 → BitVec 32) (κ : Fin 2048) : EReal :=
  Ideal.exp (rowScore q K w κ - (Finset.univ : Finset (Fin 2048)).fold max Spec.negInf (rowScore q K w))
/-- The row's attention output at lane `j`: the weighted sum of the values' lane, divided once by the sum of the weights. -/
def rowAttn (q : Fin 64 → EReal) (K V : Fin 2048 → Fin 64 → EReal) (w : Fin 2048 → BitVec 32) (j : Fin 64) : EReal :=
  Ideal.div (∑ κ : Fin 2048, rowExp q K w κ * V κ j) (∑ κ : Fin 2048, rowExp q K w κ)

/-- The specification's attention output is that of its query's row. -/
theorem attnK_eq_rowAttn (Q : Fin 4 → Fin 2048 → Fin 3072 → EReal) (ids : Fin 4 → Fin 2048 → BitVec 32)
    (b : Fin 4) (q : Fin 2048) (h : Fin 16) (j : Fin 64) :
    Spec.attnK Q ids b q h j
      = rowAttn (fun j' => Q b q (Spec.col 0 h j')) (fun κ j' => Q b κ (Spec.col 1 h j')) (fun κ j' => Q b κ (Spec.col 2 h j')) (ids b) j := rfl

/-- One head of the body, at a query row whose scaled scores and values are a row's. -/
theorem headOut_rowAttn (s : FVec Ideal S512x2048 .f32) (vs : FVec Ideal S2048x64 .bf16) (r : Fin 512)
    (q : Fin 64 → EReal) (K V : Fin 2048 → Fin 64 → EReal) (w : Fin 2048 → BitVec 32)
    (hs : ∀ κ : Fin 2048, s (ix2 r κ) = rowScore q K w κ) (hv : ∀ (κ : Fin 2048) (j : Fin 64), vs (ix2 κ j) = V κ j) (j : Fin 64) :
    headOut s vs (ix2 r j) = rowAttn q K V w j := by
  rw [headOut_apply]
  unfold rowAttn rowExp
  simp only [expV_apply, hs, hv]

/-- The scaled scores of the half at lane offset `o`, at a query row and a key. -/
theorem scaled_apply (offq offk : Fin 2 → Nat) (o : Nat) (ho : o + 64 ≤ 128) (hq0 : offq 0 = 0) (hq1 : offq 1 = o) (hk0 : offk 0 = 0) (hk1 : offk 1 = o)
    (hq : S512x128.Slices offq S512x64) (hk : S2048x128.Slices offk S2048x64)
    (x3 : Vec Ideal S1x1x2048 .i32) (x0 : Vec Ideal S1x512x128 .bf16) (x1 : Vec Ideal S1x2048x128 .bf16) (r : Fin 512) (κ : Fin 2048) :
    mulf (logits x3 (extractStridedSlice S512x64 offq (k1_pay3 (F := Ideal) x0) hq) (extractStridedSlice S2048x64 offk (k1_pay4 (F := Ideal) x1) hk))
        (broadcast S512x2048 eighthS) (ix2 r κ)
      = rowScore (fun j => x0 (ix3 0 r (lane o ho j))) (fun κ' j => x1 (ix3 0 κ' (lane o ho j))) (fun κ' => x3 (ix3 0 0 κ')) κ := by
  rw [mulf_apply, logits_apply]
  unfold rowScore
  simp only [sliceQ_apply offq o ho hq0 hq1 hq, sliceK_apply offk o ho hk0 hk1 hk, pay3_apply, pay4_apply]
  rfl

theorem hz3 : (![0, 0, 0] : Fin 3 → Nat) = fun _ => 0 := funext fun a => by fin_cases a <;> rfl

/-- THE BLOCK, left half: lane `j` of the first head of the pair. -/
theorem out4_left (x0 : Vec Ideal S1x512x128 .bf16) (x1 x2 : Vec Ideal S1x2048x128 .bf16) (x3 : Vec Ideal S1x1x2048 .i32) (r : Fin 512) (j : Fin 64) :
    Reg1.out4 (F := Ideal) x0 x1 x2 x3 (ix3 0 r (lane 0 (by omega) j))
      = rowAttn (fun j' => x0 (ix3 0 r (lane 0 (by omega) j'))) (fun κ j' => x1 (ix3 0 κ (lane 0 (by omega) j')))
          (fun κ j' => x2 (ix3 0 κ (lane 0 (by omega) j'))) (fun κ => x3 (ix3 0 0 κ)) j := by
  unfold Reg1.out4
  rw [View.canon_unit_zero hz3]
  simp only [View.ld_unit_zero (S := S1x512x128) hz3, View.ld_unit_zero (S := S1x2048x128) hz3, View.ld_unit_zero (S := S1x1x2048) hz3]
  rw [pay1_eq, addUnit_apply, concat_left _ _ r j _ (by show 0 + j.val = j.val; omega), pay6_eq]
  exact headOut_rowAttn _ _ r _ _ _ _
    (fun κ => scaled_apply ![0, 0] ![0, 0] 0 (by omega) rfl rfl rfl rfl slices_S512x128_o0_0_S512x64 slices_S2048x128_o0_0_S2048x64 x3 x0 x1 r κ)
    (fun κ j' => by rw [sliceK_apply ![0, 0] 0 (by omega) rfl rfl slices_S2048x128_o0_0_S2048x64, pay5_apply]) j

/-- THE BLOCK, right half: lane `j` of the second head of the pair. -/
theorem out4_right (x0 : Vec Ideal S1x512x128 .bf16) (x1 x2 : Vec Ideal S1x2048x128 .bf16) (x3 : Vec Ideal S1x1x2048 .i32) (r : Fin 512) (j : Fin 64) :
    Reg1.out4 (F := Ideal) x0 x1 x2 x3 (ix3 0 r (lane 64 (by omega) j))
      = rowAttn (fun j' => x0 (ix3 0 r (lane 64 (by omega) j'))) (fun κ j' => x1 (ix3 0 κ (lane 64 (by omega) j')))
          (fun κ j' => x2 (ix3 0 κ (lane 64 (by omega) j'))) (fun κ => x3 (ix3 0 0 κ)) j := by
  unfold Reg1.out4
  rw [View.canon_unit_zero hz3]
  simp only [View.ld_unit_zero (S := S1x512x128) hz3, View.ld_unit_zero (S := S1x2048x128) hz3, View.ld_unit_zero (S := S1x1x2048) hz3]
  rw [pay1_eq, addUnit_apply, concat_right _ _ r j _ (by show 64 + j.val = 64 + j.val; rfl), pay8_eq]
  unfold k1_pay7
  exact headOut_rowAttn _ _ r _ _ _ _
    (fun κ => scaled_apply ![0, 64] ![0, 64] 64 (by omega) rfl rfl rfl rfl slices_S512x128_o0_64_S512x64 slices_S2048x128_o0_64_S2048x64 x3 x0 x1 r κ)
    (fun κ j' => by rw [sliceK_apply ![0, 64] 64 (by omega) rfl rfl slices_S2048x128_o0_64_S2048x64, pay5_apply]) j

/-! ## From blocks to the array

Point `t` of the grid has the output's block index (batch, query tile, head pair). Its queries' block is the same block
of the projected activations' first third; its keys' and values' blocks are the whole 2048 rows of the same 128 columns
in the second and the third third; its mask block is the batch's row of integers. So what it writes back is the block
of ONE function of the region's arrays. -/

variable (V : (c : Dev nD) → (b : Ref sig .tc) → Buf (Elt Ideal) ((c : Thread nD τ).loc b))

/-- The projected activations and the mask integers as the region finds them, by coordinates. -/
def Qof (c : Dev nD) : Fin 4 → Fin 2048 → Fin 3072 → EReal := fun b n e => (V c main_v3 : S4x2048x3072.Idx → EReal) (ix3 b n e)
def idsOf (c : Dev nD) : Fin 4 → Fin 2048 → BitVec 32 := fun b κ => (V c main_v4 : S4x1x2048.Idx → BitVec 32) (ix3 b 0 κ)

/-- What the output array ends holding: at (b, n, e) the attention output of batch b, query n, head e / 64, lane e % 64. -/
def G (c : Dev nD) : S4x2048x1024.Idx → EReal := fun i =>
  Spec.attnK (Qof V c) (idsOf V c) ⟨(i 0).val, (i 0).isLt⟩ ⟨(i 1).val, (i 1).isLt⟩
    (Spec.headOf ⟨(i 2).val, (i 2).isLt⟩) (Spec.laneOf ⟨(i 2).val, (i 2).isLt⟩)

/-- That function at an index whose coordinates are (b, n, 64 h + j). -/
theorem G_apply (c : Dev nD) (i : S4x2048x1024.Idx) (b : Fin 4) (n : Fin 2048) (h : Fin 16) (j : Fin 64)
    (h0 : (i 0).val = b.val) (h1 : (i 1).val = n.val) (h2 : (i 2).val = 64 * h.val + j.val) :
    G V c i = Spec.attnK (Qof V c) (idsOf V c) b n h j := by
  unfold G
  have e0 : (⟨(i 0).val, (i 0).isLt⟩ : Fin 4) = b := Fin.ext h0
  have e1 : (⟨(i 1).val, (i 1).isLt⟩ : Fin 2048) = n := Fin.ext h1
  have e2 : Spec.headOf ⟨(i 2).val, (i 2).isLt⟩ = h := Fin.ext (by show (i 2).val / 64 = h.val; have := j.isLt; omega)
  have e3 : Spec.laneOf ⟨(i 2).val, (i 2).isLt⟩ = j := Fin.ext (by show (i 2).val % 64 = j.val; have := j.isLt; omega)
  rw [e0, e1, e2, e3]

/-- The printed index maps, decided once over the grid: the queries' block index is the output's; the keys' and the
    values' are the output's batch, row block 0 and the output's column block moved 8 and 16 blocks along; the mask's is
    the output's batch; and the output's block indices stay in their ranges. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = win1_4.index t (2 : Fin 3)
    ∧ win1_1.index t (0 : Fin 3) = win1_4.index t (0 : Fin 3) ∧ win1_1.index t (1 : Fin 3) = 0
    ∧ win1_1.index t (2 : Fin 3) = 8 + win1_4.index t (2 : Fin 3)
    ∧ win1_2.index t (0 : Fin 3) = win1_4.index t (0 : Fin 3) ∧ win1_2.index t (1 : Fin 3) = 0
    ∧ win1_2.index t (2 : Fin 3) = 16 + win1_4.index t (2 : Fin 3)
    ∧ win1_3.index t (0 : Fin 3) = win1_4.index t (0 : Fin 3) ∧ win1_3.index t (1 : Fin 3) = 0 ∧ win1_3.index t (2 : Fin 3) = 0
    ∧ win1_4.index t (0 : Fin 3) < 4 ∧ win1_4.index t (1 : Fin 3) < 4 ∧ win1_4.index t (2 : Fin 3) < 8 :=
  (by decide +kernel : ∀ t : Fin grid1.N, _)

/-- Every block of the output is some point's. -/
theorem idx_onto : ∀ (b : Fin 4) (qi : Fin 4) (hp : Fin 8), ∃ t : Fin cfg1.N, win1_4.index t = ![b.val, qi.val, hp.val] :=
  (by decide +kernel : ∀ (b : Fin 4) (qi : Fin 4) (hp : Fin 8), ∃ t : Fin grid1.N, win1_4.index t = ![b.val, qi.val, hp.val])

/-- An element of the queries' block at a point, in the array. -/
theorem iblk0_apply (c : Dev nD) (t : Fin cfg1.N) (b : Fin 4) (qi : Fin 4) (hp : Fin 8)
    (e0 : win1_0.index t (0 : Fin 3) = b.val) (e1 : win1_0.index t (1 : Fin 3) = qi.val) (e2 : win1_0.index t (2 : Fin 3) = hp.val)
    (r : Fin 512) (l : Fin 128) (n : Fin 2048) (e : Fin 3072) (hn : n.val = 512 * qi.val + r.val) (he : e.val = 128 * hp.val + l.val) :
    (Reg1.iblk (F := Ideal) V c 0 t : S1x512x128.Idx → EReal) (ix3 0 r l) = Qof V c b n e := by
  unfold Reg1.iblk Qof
  rw [View.read_apply]
  show (V c main_v3 : S4x2048x3072.Idx → EReal) (((cfg1.win 0).blk t).view.emb (ix3 0 r l)) = (V c main_v3 : S4x2048x3072.Idx → EReal) (ix3 b n e)
  refine congrArg (V c main_v3 : S4x2048x3072.Idx → EReal) (funext fun a => Fin.ext ?_)
  match a with
  | ⟨0, _⟩ => show win1_0.index t (0 : Fin 3) * 1 + 1 * (0 : Nat) = b.val; omega
  | ⟨1, _⟩ => show win1_0.index t (1 : Fin 3) * 512 + 1 * r.val = n.val; omega
  | ⟨2, _⟩ => show win1_0.index t (2 : Fin 3) * 128 + 1 * l.val = e.val; omega

/-- An element of the keys' block at a point, in the array: all 2048 rows, the output's 128 columns in the second third. -/
theorem iblk1_apply (c : Dev nD) (t : Fin cfg1.N) (b : Fin 4) (hp : Fin 8)
    (e0 : win1_1.index t (0 : Fin 3) = b.val) (e1 : win1_1.index t (1 : Fin 3) = 0) (e2 : win1_1.index t (2 : Fin 3) = 8 + hp.val)
    (κ : Fin 2048) (l : Fin 128) (e : Fin 3072) (he : e.val = 1024 + 128 * hp.val + l.val) :
    (Reg1.iblk (F := Ideal) V c 1 t : S1x2048x128.Idx → EReal) (ix3 0 κ l) = Qof V c b κ e := by
  unfold Reg1.iblk Qof
  rw [View.read_apply]
  show (V c main_v3 : S4x2048x3072.Idx → EReal) (((cfg1.win 1).blk t).view.emb (ix3 0 κ l)) = (V c main_v3 : S4x2048x3072.Idx → EReal) (ix3 b κ e)
  refine congrArg (V c main_v3 : S4x2048x3072.Idx → EReal) (funext fun a => Fin.ext ?_)
  match a with
  | ⟨0, _⟩ => show win1_1.index t (0 : Fin 3) * 1 + 1 * (0 : Nat) = b.val; omega
  | ⟨1, _⟩ => show win1_1.index t (1 : Fin 3) * 2048 + 1 * κ.val = κ.val; omega
  | ⟨2, _⟩ => show win1_1.index t (2 : Fin 3) * 128 + 1 * l.val = e.val; omega

/-- An element of the values' block at a point, in the array: the same columns in the third third. -/
theorem iblk2_apply (c : Dev nD) (t : Fin cfg1.N) (b : Fin 4) (hp : Fin 8)
    (e0 : win1_2.index t (0 : Fin 3) = b.val) (e1 : win1_2.index t (1 : Fin 3) = 0) (e2 : win1_2.index t (2 : Fin 3) = 16 + hp.val)
    (κ : Fin 2048) (l : Fin 128) (e : Fin 3072) (he : e.val = 2048 + 128 * hp.val + l.val) :
    (Reg1.iblk (F := Ideal) V c 2 t : S1x2048x128.Idx → EReal) (ix3 0 κ l) = Qof V c b κ e := by
  unfold Reg1.iblk Qof
  rw [View.read_apply]
  show (V c main_v3 : S4x2048x3072.Idx → EReal) (((cfg1.win 2).blk t).view.emb (ix3 0 κ l)) = (V c main_v3 : S4x2048x3072.Idx → EReal) (ix3 b κ e)
  refine congrArg (V c main_v3 : S4x2048x3072.Idx → EReal) (funext fun a => Fin.ext ?_)
  match a with
  | ⟨0, _⟩ => show win1_2.index t (0 : Fin 3) * 1 + 1 * (0 : Nat) = b.val; omega
  | ⟨1, _⟩ => show win1_2.index t (1 : Fin 3) * 2048 + 1 * κ.val = κ.val; omega
  | ⟨2, _⟩ => show win1_2.index t (2 : Fin 3) * 128 + 1 * l.val = e.val; omega

/-- An element of the mask's block at a point, in the array: the batch's row. -/
theorem iblk3_apply (c : Dev nD) (t : Fin cfg1.N) (b : Fin 4)
    (e0 : win1_3.index t (0 : Fin 3) = b.val) (e1 : win1_3.index t (1 : Fin 3) = 0) (e2 : win1_3.index t (2 : Fin 3) = 0) (κ : Fin 2048) :
    (Reg1.iblk (F := Ideal) V c 3 t : S1x1x2048.Idx → BitVec 32) (ix3 0 0 κ) = idsOf V c b κ := by
  unfold Reg1.iblk idsOf
  rw [View.read_apply]
  show (V c main_v4 : S4x1x2048.Idx → BitVec 32) (((cfg1.win 3).blk t).view.emb (ix3 0 0 κ)) = (V c main_v4 : S4x1x2048.Idx → BitVec 32) (ix3 b 0 κ)
  refine congrArg (V c main_v4 : S4x1x2048.Idx → BitVec 32) (funext fun a => Fin.ext ?_)
  match a with
  | ⟨0, _⟩ => show win1_3.index t (0 : Fin 3) * 1 + 1 * (0 : Nat) = b.val; omega
  | ⟨1, _⟩ => show win1_3.index t (1 : Fin 3) * 1 + 1 * (0 : Nat) = 0; omega
  | ⟨2, _⟩ => show win1_3.index t (2 : Fin 3) * 2048 + 1 * κ.val = κ.val; omega

/-- The row's attention depends on its arguments' values only. -/
theorem rowAttn_congr {q q' : Fin 64 → EReal} {K K' U U' : Fin 2048 → Fin 64 → EReal} {w w' : Fin 2048 → BitVec 32}
    (hq : ∀ j, q j = q' j) (hK : ∀ κ j, K κ j = K' κ j) (hU : ∀ κ j, U κ j = U' κ j) (hw : ∀ κ, w κ = w' κ) (j : Fin 64) :
    rowAttn q K U w j = rowAttn q' K' U' w' j := by
  obtain rfl : q = q' := funext hq
  obtain rfl : K = K' := funext fun κ => funext (hK κ)
  obtain rfl : U = U' := funext fun κ => funext (hU κ)
  obtain rfl : w = w' := funext hw
  rfl

/-- WHAT A POINT COMPUTES, at the half at lane offset `o` (0: the pair's first head, 64: its second): row `r`, lane `j` of
    the half is the specification's attention output of the point's batch, query `512 qi + r`, head `2 hp + o / 64`. -/
theorem point_eq (c : Dev nD) (t : Fin cfg1.N) (b : Fin 4) (qi : Fin 4) (hp : Fin 8)
    (hb : win1_4.index t (0 : Fin 3) = b.val) (hqi : win1_4.index t (1 : Fin 3) = qi.val) (hhp : win1_4.index t (2 : Fin 3) = hp.val)
    (o : Nat) (ho : o + 64 ≤ 128) (hcase : o = 0 ∨ o = 64) (r : Fin 512) (j : Fin 64) (n : Fin 2048) (h : Fin 16)
    (hn : n.val = 512 * qi.val + r.val) (hh : 64 * h.val = 128 * hp.val + o) :
    Reg1.out4 (F := Ideal) (Reg1.iblk V c 0 t) (Reg1.iblk V c 1 t) (Reg1.iblk V c 2 t) (Reg1.iblk V c 3 t) (ix3 0 r (lane o ho j))
      = Spec.attnK (Qof V c) (idsOf V c) b n h j := by
  obtain ⟨e00, e01, e02, e10, e11, e12, e20, e21, e22, e30, e31, e32, -, -, -⟩ := idx_facts t
  have hrow : Reg1.out4 (F := Ideal) (Reg1.iblk V c 0 t) (Reg1.iblk V c 1 t) (Reg1.iblk V c 2 t) (Reg1.iblk V c 3 t) (ix3 0 r (lane o ho j))
      = rowAttn (fun j' => (Reg1.iblk (F := Ideal) V c 0 t : S1x512x128.Idx → EReal) (ix3 0 r (lane o ho j')))
          (fun κ j' => (Reg1.iblk (F := Ideal) V c 1 t : S1x2048x128.Idx → EReal) (ix3 0 κ (lane o ho j')))
          (fun κ j' => (Reg1.iblk (F := Ideal) V c 2 t : S1x2048x128.Idx → EReal) (ix3 0 κ (lane o ho j')))
          (fun κ => (Reg1.iblk (F := Ideal) V c 3 t : S1x1x2048.Idx → BitVec 32) (ix3 0 0 κ)) j := by
    rcases hcase with rfl | rfl
    · exact out4_left (Reg1.iblk V c 0 t) (Reg1.iblk V c 1 t) (Reg1.iblk V c 2 t) (Reg1.iblk V c 3 t) r j
    · exact out4_right (Reg1.iblk V c 0 t) (Reg1.iblk V c 1 t) (Reg1.iblk V c 2 t) (Reg1.iblk V c 3 t) r j
  refine hrow.trans ?_
  rw [attnK_eq_rowAttn]
  refine rowAttn_congr (fun j' => ?_) (fun κ j' => ?_) (fun κ j' => ?_) (fun κ => ?_) j
  · exact iblk0_apply V c t b qi hp (e00.trans hb) (e01.trans hqi) (e02.trans hhp) r (lane o ho j') n (Spec.col 0 h j') hn
      (by show 1024 * (0 : Nat) + 64 * h.val + j'.val = 128 * hp.val + (o + j'.val); omega)
  · exact iblk1_apply V c t b hp (e10.trans hb) e11 (by rw [e12, hhp]) κ (lane o ho j') (Spec.col 1 h j')
      (by show 1024 * (1 : Nat) + 64 * h.val + j'.val = 1024 + 128 * hp.val + (o + j'.val); omega)
  · exact iblk2_apply V c t b hp (e20.trans hb) e21 (by rw [e22, hhp]) κ (lane o ho j') (Spec.col 2 h j')
      (by show 1024 * (2 : Nat) + 64 * h.val + j'.val = 2048 + 128 * hp.val + (o + j'.val); omega)
  · exact iblk3_apply V c t b (e30.trans hb) e31 e32 κ

/-- WHAT POINT `t` WRITES BACK is block `t` of `G` of the arrays as the region finds them. -/
theorem flushed_eq (c : Dev nD) (t : Fin cfg1.N) :
    (Reg1.dat (F := Ideal) V c).flushed 4 t = ((cfg1.win 4).blk t).view.read (Elt Ideal) (G V c) := by
  show (cfg1.win 4).cut (grid1.coords t) ((Reg1.dat (F := Ideal) V c).after 4 t) = _
  rw [Reg1.after_4]
  obtain ⟨-, -, -, -, -, -, -, -, -, -, -, -, b0, b1, b2⟩ := idx_facts t
  funext y
  obtain ⟨r, l, rfl⟩ : ∃ (r : Fin 512) (l : Fin 128), y = ix3 (n0 := 1) 0 r l :=
    ⟨y 1, y 2, funext fun a => by
      match a with
      | ⟨0, _⟩ => exact Fin.ext (by have h1 : (y 0).val < 1 := (y 0).isLt; show (y 0).val = 0; omega)
      | ⟨1, _⟩ => rfl
      | ⟨2, _⟩ => rfl⟩
  rw [View.read_apply]
  show Reg1.out4 (F := Ideal) (Reg1.iblk V c 0 t) (Reg1.iblk V c 1 t) (Reg1.iblk V c 2 t) (Reg1.iblk V c 3 t) (ix3 0 r l)
    = G V c (((cfg1.win 4).blk t).view.emb (ix3 0 r l))
  obtain ⟨o, ho, hcase, j, rfl⟩ : ∃ (o : Nat) (ho : o + 64 ≤ 128) (_ : o = 0 ∨ o = 64) (j : Fin 64), l = lane o ho j := by
    by_cases hl : l.val < 64
    · exact ⟨0, by omega, .inl rfl, ⟨l.val, hl⟩, Fin.ext (by show l.val = 0 + l.val; omega)⟩
    · exact ⟨64, by omega, .inr rfl, ⟨l.val - 64, by have := l.isLt; omega⟩, Fin.ext (by show l.val = 64 + (l.val - 64); omega)⟩
  have hr := r.isLt
  have hj := j.isLt
  refine (point_eq V c t ⟨win1_4.index t (0 : Fin 3), b0⟩ ⟨win1_4.index t (1 : Fin 3), b1⟩ ⟨win1_4.index t (2 : Fin 3), b2⟩ rfl rfl rfl
    o ho hcase r j ⟨512 * win1_4.index t (1 : Fin 3) + r.val, by omega⟩ ⟨2 * win1_4.index t (2 : Fin 3) + o / 64, by omega⟩ rfl
    (by show 64 * (2 * win1_4.index t (2 : Fin 3) + o / 64) = 128 * win1_4.index t (2 : Fin 3) + o; omega)).trans ?_
  refine (G_apply V c _ _ _ _ _ ?_ ?_ ?_).symm
  · show win1_4.index t (0 : Fin 3) * 1 + 1 * (0 : Nat) = win1_4.index t (0 : Fin 3); omega
  · show win1_4.index t (1 : Fin 3) * 512 + 1 * r.val = 512 * win1_4.index t (1 : Fin 3) + r.val; omega
  · show win1_4.index t (2 : Fin 3) * 128 + 1 * (o + j.val) = 64 * (2 * win1_4.index t (2 : Fin 3) + o / 64) + j.val; omega

/-- An index of the array is in point `t`'s block iff each coordinate is in the block's range on its axis. -/
theorem mem_blk (t : Fin cfg1.N) (i : S4x2048x1024.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v5).slice (win1_4.rect t)).set ↔ _
  rw [View.set_slice_whole, Rect.mem_set_unit]
  exact Iff.rfl

/-- Every index is in the block of the point whose block index is (its batch, its query's tile, its column's head pair). -/
theorem cover (i : S4x2048x1024.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩ ⟨(i 2).val / 128, by omega⟩
  have q0 : win1_4.index t (0 : Fin 3) = (i 0).val := congrFun ht 0
  have q1 : win1_4.index t (1 : Fin 3) = (i 1).val / 512 := congrFun ht 1
  have q2 : win1_4.index t (2 : Fin 3) = (i 2).val / 128 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- The array after the region's 128 write-backs is the whole result. -/
theorem arr_eq (c : Dev nD) : (Reg1.dat (F := Ideal) V c).arrAt 4 cfg1.N = G V c :=
  (Reg1.dat (F := Ideal) V c).arrAt_eq_of_cover 4 (G V c) (fun t _ => flushed_eq V c t) cover

/-- The output array after the region, at an index. -/
theorem final (c : Dev nD) (b : Fin 4) (n : Fin 2048) (e : Fin 1024) :
    ((Reg1.dat (F := Ideal) V c).arrAt 4 cfg1.N : S4x2048x1024.Idx → EReal) (ix3 b n e)
      = Spec.attnK (Qof V c) (idsOf V c) b n (Spec.headOf e) (Spec.laneOf e) := by
  rw [arr_eq]
  exact G_apply V c (ix3 b n e) b n (Spec.headOf e) (Spec.laneOf e) rfl rfl
    (by show e.val = 64 * (e.val / 64) + e.val % 64; omega)

end Cert.KernelIdeal.Val1

end
-- ==== Proof.KI.Val2.lean ====
/-
  What the output projection (region 2) leaves in its output array, at the extended reals: entry (r, e) of the flattened
  result is the sum over k of the flattened attention output's entry (r, k) times the narrowed output weights' entry
  (e, k), plus the bias at e. A point's block is the product of the point's 512 rows with the whole weight matrix plus
  the bias row; the 16 blocks tile the array.
-/
import proofs.«400423_j83313775608371_3_alg».proof.Proof.KI.Reg2
import proofs.«400423_j83313775608371_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Idealize.ShloMosaic Idealize.ShloMosaic.TcCoe Idealize.ShloMosaic.ValueIdx Idealize.SL.Sem
open scoped BigOperators

open Cert.KernelIdeal Cert.KernelIdeal.Gen

variable (V : (c : Dev nD) → (b : Ref sig .tc) → Buf (Elt Ideal) ((c : Thread nD τ).loc b))

/-- The flattened attention output, the narrowed output weights and the bias as the region finds them. -/
def ain (c : Dev nD) : S8192x1024.Idx → EReal := V c main_v6
def wout (c : Dev nD) : S1024x1024.Idx → EReal := V c main_v7
def bias (c : Dev nD) : S1024.Idx → EReal := V c main_arg4

/-- The whole result: `(Σ_k a[r, k] · w[e, k]) + bias[e]`. -/
def G (c : Dev nD) : S8192x1024.Idx → EReal := fun i => (∑ k : Fin 1024, ain V c (ix2 (i 0) k) * wout V c (ix2 (i 1) k)) + bias V c (ix1 (i 1))

/-! ## The body's product at an index -/

theorem lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product onto the zero accumulator at an index: the contraction over the 1024 columns. -/
theorem mm_apply (x0 : FVec Ideal S512x1024 .bf16) (x1 : FVec Ideal S1024x1024 .bf16) (p : Fin 512) (e : Fin 1024) :
    matmul (F := Ideal) dot_S512x1024_S1024x1024_S512x1024_1_1_0_0_n_n none x0 x1 (constant S512x1024 .f32 0x00000000#32) (ix2 p e) = ∑ k : Fin 1024, x0 (ix2 p k) * x1 (ix2 e k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p e) ((ValueIdx.contrEquiv1 dot_S512x1024_S1024x1024_S512x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_1_0_0_n_n.rhsIdx (ix2 p e) ((ValueIdx.contrEquiv1 dot_S512x1024_S1024x1024_S512x1024_1_1_0_0_n_n 1024 rfl rfl).symm k) = ix2 e k := funext fun a => Fin.ext (by
    match a with
    | ⟨0, _⟩ => exact rhs_0 _ _
    | ⟨1, _⟩ => exact (rhs_1 _ _).trans hk)
  rw [el, er]

/-- The body's payload at an index: the product plus the bias row's entry. -/
theorem pay_apply (x0 : FVec Ideal S512x1024 .bf16) (x1 : FVec Ideal S1024x1024 .bf16) (x2 : FVec Ideal S1024 .f32) (p : Fin 512) (e : Fin 1024) :
    k2_pay1 (F := Ideal) x0 x1 x2 (ix2 p e) = (∑ k : Fin 1024, x0 (ix2 p k) * x1 (ix2 e k)) + x2 (ix1 e) := by
  unfold k2_pay1
  simp only [shapeCast_self]
  show matmul (F := Ideal) dot_S512x1024_S1024x1024_S512x1024_1_1_0_0_n_n none x0 x1 (constant S512x1024 .f32 0x00000000#32) (ix2 p e)
      + broadcastTo S512x1024 (shapeCast S1x1024 x2 shapeCasts_S1024_S1x1024) broadcasts_S1x1024_S512x1024 (ix2 p e) = _
  rw [mm_apply, broadcastTo_1b_ab_apply, shapeCast_a_1a_apply]

/-! ## From the blocks to the array -/

theorem hz : (![0, 0] : Fin 2 → Nat) = fun _ => 0 := funext fun a => by fin_cases a <;> rfl
theorem hz1 : (![0] : Fin 1 → Nat) = fun _ => 0 := funext fun a => by fin_cases a; rfl

/-- The windows' block indices at a point: the attention rows move with the output's, nothing else moves. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) = t.val :=
  (by decide +kernel : ∀ t : Fin grid2.N, _)

/-- What point `t` writes back is block `t` of the whole result. -/
theorem flushed_eq (c : Dev nD) (t : Fin cfg2.N) :
    (Reg2.dat (F := Ideal) V c).flushed 3 t = ((cfg2.win 3).blk t).view.read (Elt Ideal) (G V c) := by
  show (cfg2.win 3).cut (grid2.coords t) ((Reg2.dat (F := Ideal) V c).after 3 t) = _
  rw [Reg2.after_3]
  unfold Reg2.out3
  rw [View.canon_unit_zero hz]
  simp only [View.ld_unit_zero (S := S512x1024) hz, View.ld_unit_zero (S := S1024x1024) hz, View.ld_unit_zero (S := S1024) hz1]
  obtain ⟨e0, e1, e2, e3, e4, e5, e6⟩ := idx_facts t
  funext j
  obtain ⟨p, e, rfl⟩ : ∃ (p : Fin 512) (e : Fin 1024), j = ix2 p e := ⟨j 0, j 1, eq_ix2 j⟩
  show k2_pay1 (F := Ideal) (Reg2.iblk V c 0 t) (Reg2.iblk V c 1 t) (Reg2.iblk V c 2 t) (ix2 p e) = G V c (((cfg2.win 3).blk t).view.emb (ix2 p e))
  rw [pay_apply]
  unfold G
  show (∑ k : Fin 1024, ain V c (((cfg2.win 0).blk t).view.emb (ix2 p k)) * wout V c (((cfg2.win 1).blk t).view.emb (ix2 e k)))
      + bias V c (((cfg2.win 2).blk t).view.emb (ix1 e))
    = (∑ k : Fin 1024, ain V c (ix2 ((((cfg2.win 3).blk t).view.emb (ix2 p e)) 0) k) * wout V c (ix2 ((((cfg2.win 3).blk t).view.emb (ix2 p e)) 1) k))
      + bias V c (ix1 ((((cfg2.win 3).blk t).view.emb (ix2 p e)) 1))
  have h0 : ∀ k : Fin 1024, ((cfg2.win 0).blk t).view.emb (ix2 p k) = ix2 ((((cfg2.win 3).blk t).view.emb (ix2 p e)) 0) k := fun k => by
    funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * k.val = k.val; omega
  have h1 : ∀ k : Fin 1024, ((cfg2.win 1).blk t).view.emb (ix2 e k) = ix2 ((((cfg2.win 3).blk t).view.emb (ix2 p e)) 1) k := fun k => by
    funext a; apply Fin.ext
    match a with
    | ⟨0, _⟩ => show win2_1.index t (0 : Fin 2) * 1024 + 1 * e.val = win2_3.index t (1 : Fin 2) * 1024 + 1 * e.val; omega
    | ⟨1, _⟩ => show win2_1.index t (1 : Fin 2) * 1024 + 1 * k.val = k.val; omega
  have h2 : ((cfg2.win 2).blk t).view.emb (ix1 e) = ix1 ((((cfg2.win 3).blk t).view.emb (ix2 p e)) 1) := by
    funext a; apply Fin.ext
    match a with
    | ⟨0, _⟩ => show win2_2.index t (0 : Fin 1) * 1024 + 1 * e.val = win2_3.index t (1 : Fin 2) * 1024 + 1 * e.val; omega
  simp only [h0, h1, h2]
  rfl

/-- An index of the array is in point `t`'s block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v8).slice (win2_3.rect t)).set ↔ _
  rw [View.set_slice_whole, Rect.mem_set_unit]
  exact Iff.rfl

/-- Every index is in the block of the point that holds its row. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  let t : Fin cfg2.N := ⟨(i 0).val / 512, by rw [show cfg2.N = 16 from N_2]; omega⟩
  obtain ⟨e0, e1, e2, e3, e4, e5, e6⟩ := idx_facts t
  have e6' : win2_3.index t (0 : Fin 2) = (i 0).val / 512 := e6
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The array after the region is the whole result. -/
theorem arr_eq (c : Dev nD) : (Reg2.dat (F := Ideal) V c).arrAt 3 cfg2.N = G V c :=
  (Reg2.dat (F := Ideal) V c).arrAt_eq_of_cover 3 (G V c) (fun t _ => flushed_eq V c t) (cover)

/-- The array after the region, at an index. -/
theorem final (c : Dev nD) (r : Fin 8192) (e : Fin 1024) :
    ((Reg2.dat (F := Ideal) V c).arrAt 3 cfg2.N : S8192x1024.Idx → EReal) (ix2 r e)
      = (∑ k : Fin 1024, ain V c (ix2 r k) * wout V c (ix2 e k)) + bias V c (ix1 e) := by
  rw [arr_eq]; rfl

end Cert.KernelIdeal.Val2

end
-- ==== Proof.KI.Chain.lean ====
/-
  The kernel's result as one function of its arguments, at the extended reals. Reading the run's last boundary at the
  result array and walking back: the result is the output projection's array unflattened; that array is the flattened
  attention output times the output weights plus the bias; the attention output is the specification's attention (the
  weighted sum divided once) of the unflattened projected activations and the mask integers; the projected activations are
  the flattened activations times the input weights. The reshapes between a [4, 2048, K] array and its [8192, K]
  flattening identify entry (b, n, k) with entry (2048·b + n, k); the narrowings of the weights are the identity.
-/
import proofs.«400423_j83313775608371_3_alg».proof.Proof.KI.Run
import proofs.«400423_j83313775608371_3_alg».proof.Proof.KI.HostVals
import proofs.«400423_j83313775608371_3_alg».proof.Proof.KI.Val0
import proofs.«400423_j83313775608371_3_alg».proof.Proof.KI.Val1
import proofs.«400423_j83313775608371_3_alg».proof.Proof.KI.Val2
import proofs.«400423_j83313775608371_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Chain

open Idealize.ShloMosaic Idealize.ShloMosaic.TcCoe Idealize.ShloMosaic.ValueIdx Idealize.SL.Sem
open scoped BigOperators

open Cert.KernelIdeal Cert.KernelIdeal.Gen Cert.KernelIdeal.Run

/-! ## A [4, 2048, K] array and its [8192, K] flattening -/

/-- Row `2048·b + n` of the flattening. -/
def row (b : Fin 4) (n : Fin 2048) : Fin 8192 := ⟨2048 * b.val + n.val, by omega⟩

theorem flatten_apply {K : ℕ} {α : Type} (x : (⟨3, ![4, 2048, K]⟩ : Shape).Idx → α)
    (h : (⟨3, ![4, 2048, K]⟩ : Shape).ShapeCasts ⟨2, ![8192, K]⟩) (b : Fin 4) (n : Fin 2048) (k : Fin K) :
    shapeCast ⟨2, ![8192, K]⟩ x h (ix2 (row b n) k) = x (ix3 b n k) :=
  shapeCast_apply x h _ _ (by
    rw [Shape.rowMajor_val_two, Shape.rowMajor_val_three]
    show (b.val * 2048 + n.val) * K + k.val = (2048 * b.val + n.val) * K + k.val
    rw [Nat.mul_comm b.val 2048])

theorem unflatten_apply {K : ℕ} {α : Type} (y : (⟨2, ![8192, K]⟩ : Shape).Idx → α)
    (h : (⟨2, ![8192, K]⟩ : Shape).ShapeCasts ⟨3, ![4, 2048, K]⟩) (b : Fin 4) (n : Fin 2048) (k : Fin K) :
    shapeCast ⟨3, ![4, 2048, K]⟩ y h (ix3 b n k) = y (ix2 (row b n) k) :=
  shapeCast_apply y h _ _ (by
    rw [Shape.rowMajor_val_two, Shape.rowMajor_val_three]
    show (2048 * b.val + n.val) * K + k.val = (b.val * 2048 + n.val) * K + k.val
    rw [Nat.mul_comm b.val 2048])

/-- The mask integers' [4, 2048] array reshaped to [4, 1, 2048]. -/
theorem mask_reshape_apply {α : Type} (z : (⟨2, ![4, 2048]⟩ : Shape).Idx → α)
    (h : (⟨2, ![4, 2048]⟩ : Shape).ShapeCasts ⟨3, ![4, 1, 2048]⟩) (b : Fin 4) (κ : Fin 2048) :
    shapeCast ⟨3, ![4, 1, 2048]⟩ z h (ix3 b (0 : Fin 1) κ) = z (ix2 b κ) :=
  shapeCast_apply z h _ _ (by
    rw [Shape.rowMajor_val_two, Shape.rowMajor_val_three]
    show b.val * 2048 + κ.val = (b.val * 1 + 0) * 2048 + κ.val
    omega)

variable (m : (ℓ : Loc nD τ sig) → Buf (Elt Ideal) ℓ) (c : Dev nD)

/-! ## The arguments by coordinates -/

def X : Fin 4 → Fin 2048 → Fin 1024 → EReal := fun b n d => (m ((c : Thread nD τ).loc main_arg0) : S4x2048x1024.Idx → EReal) (ix3 b n d)
def Ids : Fin 4 → Fin 2048 → BitVec 32 := fun b κ => (m ((c : Thread nD τ).loc main_arg1) : S4x2048.Idx → BitVec 32) (ix2 b κ)
def Win : Fin 3072 → Fin 1024 → EReal := fun e d => (m ((c : Thread nD τ).loc main_arg2) : S3072x1024.Idx → EReal) (ix2 e d)
def Wout : Fin 1024 → Fin 1024 → EReal := fun e k => (m ((c : Thread nD τ).loc main_arg3) : S1024x1024.Idx → EReal) (ix2 e k)
def Bias : Fin 1024 → EReal := fun e => (m ((c : Thread nD τ).loc main_arg4) : S1024.Idx → EReal) (ix1 e)

/-! ## The projected activations -/

theorem xin_at (b : Fin 4) (n : Fin 2048) (d : Fin 1024) : Val0.xin (U1 m) c (ix2 (row b n) d) = X m c b n d :=
  (congrFun (HostVals.W1_v0 m c) (ix2 (row b n) d)).trans (flatten_apply _ _ b n d)

theorem win_at (e : Fin 3072) (d : Fin 1024) : Val0.win (U1 m) c (ix2 e d) = Win m c e d :=
  congrFun (HostVals.W1_v1 m c) (ix2 e d)

theorem Q_eq : Val1.Qof (U3 m) c = Spec.proj (X m c) (Win m c) := by
  funext b n e
  have h1 : Val1.Qof (U3 m) c b n e = ((Reg0.dat (F := Ideal) (U1 m) c).arrAt 2 cfg0.N : S8192x3072.Idx → EReal) (ix2 (row b n) e) :=
    (congrFun (HostVals.W3_v3 m c) (ix3 b n e)).trans (unflatten_apply _ _ b n e)
  rw [h1, Val0.final]
  unfold Spec.proj
  exact Finset.sum_congr rfl fun d _ => by rw [xin_at, win_at]

theorem ids_eq : Val1.idsOf (U3 m) c = Ids m c := by
  funext b κ
  exact (congrFun (HostVals.W3_v4 m c) (ix3 b (0 : Fin 1) κ)).trans (mask_reshape_apply _ _ b κ)

/-! ## Attention's output, flattened -/

theorem ain_at (b : Fin 4) (n : Fin 2048) (k : Fin 1024) :
    Val2.ain (U5 m) c (ix2 (row b n) k) = Spec.attnK (Spec.proj (X m c) (Win m c)) (Ids m c) b n (Spec.headOf k) (Spec.laneOf k) := by
  have h1 : Val2.ain (U5 m) c (ix2 (row b n) k) = ((Reg1.dat (F := Ideal) (U3 m) c).arrAt 4 cfg1.N : S4x2048x1024.Idx → EReal) (ix3 b n k) :=
    (congrFun (HostVals.W5_v6 m c) (ix2 (row b n) k)).trans (flatten_apply _ _ b n k)
  rw [h1, Val1.final, Q_eq, ids_eq]

theorem wout_at (e k : Fin 1024) : Val2.wout (U5 m) c (ix2 e k) = Wout m c e k :=
  congrFun (HostVals.W5_v7 m c) (ix2 e k)

theorem bias_at (e : Fin 1024) : Val2.bias (U5 m) c (ix1 e) = Bias m c e :=
  congrFun (HostVals.W5_arg4 m c) (ix1 e)

/-! ## The result -/

/-- THE KERNEL'S VALUE: the result array at the run's end, entry by entry, is the specification's whole function in the
    kernel's order, of the arguments. -/
theorem value (b : Fin 4) (n : Fin 2048) (e : Fin 1024) :
    (W7 m c (Proc.devRef .tc main_v9) : S4x2048x1024.Idx → EReal) (ix3 b n e)
      = Spec.wholeK (X m c) (Ids m c) (Win m c) (Wout m c) (Bias m c) b n e := by
  have h1 : (W7 m c (Proc.devRef .tc main_v9) : S4x2048x1024.Idx → EReal) (ix3 b n e)
      = ((Reg2.dat (F := Ideal) (U5 m) c).arrAt 3 cfg2.N : S8192x1024.Idx → EReal) (ix2 (row b n) e) :=
    (congrFun (HostVals.W7_v9 m c) (ix3 b n e)).trans (unflatten_apply _ _ b n e)
  rw [h1, Val2.final]
  show (∑ k : Fin 1024, Val2.ain (U5 m) c (ix2 (row b n) k) * Val2.wout (U5 m) c (ix2 e k)) + Val2.bias (U5 m) c (ix1 e)
    = (∑ k : Fin 1024, Spec.attnK (Spec.proj (X m c) (Win m c)) (Ids m c) b n (Spec.headOf k) (Spec.laneOf k) * Wout m c e k) + Bias m c e
  rw [bias_at]
  exact congrArg (· + Bias m c e) (Finset.sum_congr rfl fun k _ => by rw [ain_at, wout_at])

end Cert.KernelIdeal.Chain

end
-- ==== Proof.RefG.lean ====
/-
  The reference's result, read at an index at the extended reals, is the specification's whole function in the
  reference's order (every softmax weight divided by the row's sum before the weighted sum of the values).
-/
import proofs.«400423_j83313775608371_3_alg».proof.Proof.Gen.ReferenceIdeal.Read
import proofs.«400423_j83313775608371_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefG

open Idealize.ShloMosaic Idealize.ShloMosaic.TcCoe Idealize.ShloMosaic.ValueIdx Idealize.SL.Sem
open scoped BigOperators

open Cert.ReferenceIdeal Cert.ReferenceIdeal.Gen

/-! ## The index maps of the layout stages, at coordinates -/

theorem idx_v4 (b : Fin 4) (h : Fin 16) (q : Fin 2048) (j : Fin 64) :
    Read.idx_main_v4 (ix4 b h q j) = ix5 (0 : Fin 1) b h q j := by
  funext a; apply Fin.ext
  have hb := b.isLt; have hh := h.isLt; have hq := q.isLt; have hj := j.isLt
  match a with
  | ⟨0, _⟩ => rfl
  | ⟨1, _⟩ => show (((b.val * 16 + h.val) * 2048 + q.val) * 64 + j.val) / 2097152 % 4 = b.val; omega
  | ⟨2, _⟩ => show (((b.val * 16 + h.val) * 2048 + q.val) * 64 + j.val) / 131072 % 16 = h.val; omega
  | ⟨3, _⟩ => show (((b.val * 16 + h.val) * 2048 + q.val) * 64 + j.val) / 64 % 2048 = q.val; omega
  | ⟨4, _⟩ => show (((b.val * 16 + h.val) * 2048 + q.val) * 64 + j.val) % 64 = j.val; omega

theorem idx_v3 (b : Fin 4) (h : Fin 16) (q : Fin 2048) (j : Fin 64) :
    Read.idx_main_v3 (ix5 (0 : Fin 1) b h q j) = ix5 (0 : Fin 3) b h q j := by
  funext a; apply Fin.ext
  match a with
  | ⟨0, _⟩ => rfl
  | ⟨1, _⟩ => rfl
  | ⟨2, _⟩ => rfl
  | ⟨3, _⟩ => rfl
  | ⟨4, _⟩ => rfl

theorem idx_v2 (s : Fin 3) (b : Fin 4) (h : Fin 16) (q : Fin 2048) (j : Fin 64) :
    Read.idx_main_v2 (ix5 s b h q j) = ix5 b q s h j := by
  funext a; apply Fin.ext
  match a with
  | ⟨0, _⟩ => rfl
  | ⟨1, _⟩ => rfl
  | ⟨2, _⟩ => rfl
  | ⟨3, _⟩ => rfl
  | ⟨4, _⟩ => rfl

theorem idx_v1 (b : Fin 4) (q : Fin 2048) (s : Fin 3) (h : Fin 16) (j : Fin 64) :
    Read.idx_main_v1 (ix5 b q s h j) = ix3 b q (Spec.col s h j) := by
  funext a; apply Fin.ext
  have hb := b.isLt; have hh := h.isLt; have hq := q.isLt; have hj := j.isLt; have hs := s.isLt
  match a with
  | ⟨0, _⟩ => show ((((b.val * 2048 + q.val) * 3 + s.val) * 16 + h.val) * 64 + j.val) / 6291456 = b.val; omega
  | ⟨1, _⟩ => show ((((b.val * 2048 + q.val) * 3 + s.val) * 16 + h.val) * 64 + j.val) / 3072 % 2048 = q.val; omega
  | ⟨2, _⟩ => show ((((b.val * 2048 + q.val) * 3 + s.val) * 16 + h.val) * 64 + j.val) % 3072 = 1024 * s.val + 64 * h.val + j.val; omega

theorem idx_v6 (b : Fin 4) (h : Fin 16) (q : Fin 2048) (j : Fin 64) :
    Read.idx_main_v6 (ix4 b h q j) = ix5 (0 : Fin 1) b h q j := idx_v4 b h q j

theorem idx_v8 (b : Fin 4) (h : Fin 16) (q : Fin 2048) (j : Fin 64) :
    Read.idx_main_v8 (ix4 b h q j) = ix5 (0 : Fin 1) b h q j := idx_v4 b h q j

theorem idx_v5 (b : Fin 4) (h : Fin 16) (q : Fin 2048) (j : Fin 64) :
    Read.idx_main_v5 (ix5 (0 : Fin 1) b h q j) = ix5 (1 : Fin 3) b h q j := by
  funext a; apply Fin.ext
  match a with
  | ⟨0, _⟩ => rfl
  | ⟨1, _⟩ => rfl
  | ⟨2, _⟩ => rfl
  | ⟨3, _⟩ => rfl
  | ⟨4, _⟩ => rfl

theorem idx_v7 (b : Fin 4) (h : Fin 16) (q : Fin 2048) (j : Fin 64) :
    Read.idx_main_v7 (ix5 (0 : Fin 1) b h q j) = ix5 (2 : Fin 3) b h q j := by
  funext a; apply Fin.ext
  match a with
  | ⟨0, _⟩ => rfl
  | ⟨1, _⟩ => rfl
  | ⟨2, _⟩ => rfl
  | ⟨3, _⟩ => rfl
  | ⟨4, _⟩ => rfl

/-! ## The stages at coordinates -/

section Stages

variable (x0 : (⟨S4x2048x1024, .f32⟩ : BufTy).Contents (Elt Ideal)) (x1 : (⟨S4x2048, .i32⟩ : BufTy).Contents (Elt Ideal))
    (x2 : (⟨S3072x1024, .f32⟩ : BufTy).Contents (Elt Ideal)) (x3 : (⟨S1024x1024, .f32⟩ : BufTy).Contents (Elt Ideal))
    (x4 : (⟨S1024, .f32⟩ : BufTy).Contents (Elt Ideal))

/-- The arguments as functions of their coordinates, and the projected activations. -/
abbrev X : Fin 4 → Fin 2048 → Fin 1024 → EReal := fun b n d => (x0 : S4x2048x1024.Idx → EReal) (ix3 b n d)
abbrev Ids : Fin 4 → Fin 2048 → BitVec 32 := fun b κ => (x1 : S4x2048.Idx → BitVec 32) (ix2 b κ)
abbrev Win : Fin 3072 → Fin 1024 → EReal := fun e d => (x2 : S3072x1024.Idx → EReal) (ix2 e d)
abbrev Qkv : Fin 4 → Fin 2048 → Fin 3072 → EReal := Spec.proj (X x0) (Win x2)

/-- The input projection at (b, n, e). -/
theorem qkv_at (b : Fin 4) (n : Fin 2048) (e : Fin 3072) :
    Read.val_main_v0 (F := Ideal) x0 x2 (ix3 b n e) = Qkv x0 x2 b n e := by
  rw [Read.val_main_v0_apply]
  show _ = ∑ d : Fin 1024, X x0 b n d * Win x2 e d
  refine Finset.sum_congr rfl fun k _ => ?_
  have el : Read.lidx_main_v0 (ix3 b n e) k = ix3 b n k :=
    funext fun a => Fin.ext (by match a with | ⟨0, _⟩ => rfl | ⟨1, _⟩ => rfl | ⟨2, _⟩ => rfl)
  have er : Read.ridx_main_v0 (ix3 b n e) k = ix2 e k :=
    funext fun a => Fin.ext (by match a with | ⟨0, _⟩ => rfl | ⟨1, _⟩ => rfl)
  rw [el, er]

/-- Queries, keys and values at (b, h, n, j) are the columns 64h + j of the three thirds of the projection. -/
theorem q_at (b : Fin 4) (h : Fin 16) (n : Fin 2048) (j : Fin 64) :
    Read.val_main_v4 (F := Ideal) x0 x2 (ix4 b h n j) = Qkv x0 x2 b n (Spec.col 0 h j) := by
  rw [Read.val_main_v4_apply, idx_v4, Read.val_main_v3_apply, idx_v3, Read.val_main_v2_apply, idx_v2,
    Read.val_main_v1_apply, idx_v1, qkv_at]

theorem k_at (b : Fin 4) (h : Fin 16) (n : Fin 2048) (j : Fin 64) :
    Read.val_main_v6 (F := Ideal) x0 x2 (ix4 b h n j) = Qkv x0 x2 b n (Spec.col 1 h j) := by
  rw [Read.val_main_v6_apply, idx_v6, Read.val_main_v5_apply, idx_v5, Read.val_main_v2_apply, idx_v2,
    Read.val_main_v1_apply, idx_v1, qkv_at]

theorem v_at (b : Fin 4) (h : Fin 16) (n : Fin 2048) (j : Fin 64) :
    Read.val_main_v8 (F := Ideal) x0 x2 (ix4 b h n j) = Qkv x0 x2 b n (Spec.col 2 h j) := by
  rw [Read.val_main_v8_apply, idx_v8, Read.val_main_v7_apply, idx_v7, Read.val_main_v2_apply, idx_v2,
    Read.val_main_v1_apply, idx_v1, qkv_at]

end Stages

/-! ## The softmax -/

/-- The float word of −∞ is the bottom of the extended reals. -/
theorem negInf_eq_bot : Ideal.ofBits .f32 0xFF800000#32 = (⊥ : EReal) := by
  simp [Ideal.ofBits, Ideal.ieee]

/-- The key axis's reduction witness, and the index it inserts a key coordinate into. -/
theorem reduces_keys : S4x16x2048x2048.Reduces [3] S4x16x2048 := by decide

theorem lift_keys (b : Fin 4) (h : Fin 16) (q : Fin 2048) (κ : Fin 2048) :
    reduces_keys.lift (ix3 b h q) κ = ix4 b h q κ := by
  funext a; apply Fin.ext
  match a with
  | ⟨0, _⟩ => rfl
  | ⟨1, _⟩ => rfl
  | ⟨2, _⟩ => rfl
  | ⟨3, _⟩ => rfl

/-- A maximum-reduce over the key axis, at (b, h, q), is the fold of max over the keys from the initial value. -/
theorem reduce_max_keys (y : FVec Ideal S4x16x2048x2048 .f32) (c : FVec Ideal S_ .f32) (b : Fin 4) (h : Fin 16) (q : Fin 2048) :
    Host.reduce FloatOps.maximumf y c reducesTo_S4x16x2048x2048_S4x16x2048_d3 h_S_ (ix3 b h q)
      = (Finset.univ : Finset (Fin 2048)).fold max (c (Shape.Idx.first h_S_)) fun κ => y (ix4 b h q κ) := by
  rw [Host.reduce_eq_fold_single FloatOps.maximumf y c reducesTo_S4x16x2048x2048_S4x16x2048_d3 reduces_keys h_S_]
  have hf : (y ∘ reduces_keys.lift (ix3 b h q)) = fun κ : Fin 2048 => y (ix4 b h q κ) :=
    funext fun κ => congrArg y (lift_keys b h q κ)
  exact congrArg (fun f => Finset.fold max (c (Shape.Idx.first h_S_)) f (Finset.univ : Finset (Fin 2048))) hf

section Softmax

variable (x0 : (⟨S4x2048x1024, .f32⟩ : BufTy).Contents (Elt Ideal)) (x1 : (⟨S4x2048, .i32⟩ : BufTy).Contents (Elt Ideal))
    (x2 : (⟨S3072x1024, .f32⟩ : BufTy).Contents (Elt Ideal))

/-- The masked, scaled score at (b, h, q, κ). -/
theorem score_at (b : Fin 4) (h : Fin 16) (q κ : Fin 2048) :
    Read.val_main_v17 (F := Ideal) x0 x1 x2 (ix4 b h q κ) = Spec.score (Qkv x0 x2) (Ids x1) b h q κ := by
  rw [Read.val_main_v17_apply, Read.val_main_v15_apply, Read.val_main_v9_apply, Read.val_main_v14_apply,
    Read.val_main_v13_apply, Read.val_main_v12_apply, Read.val_main_v10_apply, Read.val_main_v11_apply,
    Read.val_main_cst_apply, Read.val_main_v16_apply, Read.val_main_cst_0_apply]
  have e13 : Read.idx_main_v13 (Read.idx_main_v14 (ix4 b h q κ)) = ix2 b κ :=
    funext fun a => Fin.ext (by match a with | ⟨0, _⟩ => rfl | ⟨1, _⟩ => rfl)
  have es : (∑ k : Fin 64, Read.val_main_v4 (F := Ideal) x0 x2 (Read.lidx_main_v9 (ix4 b h q κ) k)
        * Read.val_main_v6 (F := Ideal) x0 x2 (Read.ridx_main_v9 (ix4 b h q κ) k))
      = ∑ j : Fin 64, Qkv x0 x2 b q (Spec.col 0 h j) * Qkv x0 x2 b κ (Spec.col 1 h j) :=
    Finset.sum_congr rfl fun k _ => by
      have el : Read.lidx_main_v9 (ix4 b h q κ) k = ix4 b h q k :=
        funext fun a => Fin.ext (by match a with | ⟨0, _⟩ => rfl | ⟨1, _⟩ => rfl | ⟨2, _⟩ => rfl | ⟨3, _⟩ => rfl)
      have er : Read.ridx_main_v9 (ix4 b h q κ) k = ix4 b h κ k :=
        funext fun a => Fin.ext (by match a with | ⟨0, _⟩ => rfl | ⟨1, _⟩ => rfl | ⟨2, _⟩ => rfl | ⟨3, _⟩ => rfl)
      rw [el, er, q_at, k_at]
  rw [e13, es]
  rfl

/-- The row's maximum at (b, h, q): the reduce from −∞, and the maximum against −∞ that changes nothing. -/
theorem rowMax_at (b : Fin 4) (h : Fin 16) (q : Fin 2048) :
    Read.val_main_v20 (F := Ideal) x0 x1 x2 (ix3 b h q) = Spec.rowMax (Qkv x0 x2) (Ids x1) b h q := by
  rw [Read.val_main_v20_apply, Read.val_main_v19_apply, Read.val_main_cst_2_apply]
  simp only [Ideal.maximumf_def, Ideal.ofBits_def]
  rw [negInf_eq_bot, max_eq_right bot_le]
  unfold Read.val_main_v18
  rw [reduce_max_keys, Read.val_main_cst_1_apply]
  unfold Spec.rowMax
  simp only [Ideal.ofBits_def]
  exact congrArg (fun f => Finset.fold max (Ideal.ofBits .f32 0xFF800000#32) f (Finset.univ : Finset (Fin 2048)))
    (funext fun κ => score_at x0 x1 x2 b h q κ)

/-- The exponential at (b, h, q, κ). -/
theorem pexp_at (b : Fin 4) (h : Fin 16) (q κ : Fin 2048) :
    Read.val_main_v24 (F := Ideal) x0 x1 x2 (ix4 b h q κ) = Spec.pexp (Qkv x0 x2) (Ids x1) b h q κ := by
  rw [Read.val_main_v24_apply, Read.val_main_v23_apply, Read.val_main_v22_apply, Read.val_main_v21_apply]
  have e : Read.idx_main_v21 (Read.idx_main_v22 (ix4 b h q κ)) = ix3 b h q :=
    funext fun a => Fin.ext (by match a with | ⟨0, _⟩ => rfl | ⟨1, _⟩ => rfl | ⟨2, _⟩ => rfl)
  rw [e, score_at, rowMax_at]
  rfl

/-- The row's sum of exponentials at (b, h, q). -/
theorem den_at (b : Fin 4) (h : Fin 16) (q : Fin 2048) :
    Read.val_main_v25 (F := Ideal) x0 x1 x2 (ix3 b h q) = Spec.den (Qkv x0 x2) (Ids x1) b h q := by
  rw [Read.val_main_v25_apply, Read.val_main_cst_3_apply]
  simp only [Ideal.ofBits_def]
  rw [Ideal.ofBits_zero_f32, zero_add]
  unfold Spec.den
  refine Finset.sum_congr rfl fun k _ => ?_
  have e : Read.idx_main_v25 (ix3 b h q) k = ix4 b h q k :=
    funext fun a => Fin.ext (by match a with | ⟨0, _⟩ => rfl | ⟨1, _⟩ => rfl | ⟨2, _⟩ => rfl | ⟨3, _⟩ => rfl)
  rw [e, pexp_at]

/-- The softmax weight at (b, h, q, κ): the exponential divided by the row's sum. -/
theorem weight_at (b : Fin 4) (h : Fin 16) (q κ : Fin 2048) :
    Read.val_main_v28 (F := Ideal) x0 x1 x2 (ix4 b h q κ)
      = Ideal.div (Spec.pexp (Qkv x0 x2) (Ids x1) b h q κ) (Spec.den (Qkv x0 x2) (Ids x1) b h q) := by
  rw [Read.val_main_v28_apply, Read.val_main_v27_apply, Read.val_main_v26_apply]
  have e : Read.idx_main_v26 (Read.idx_main_v27 (ix4 b h q κ)) = ix3 b h q :=
    funext fun a => Fin.ext (by match a with | ⟨0, _⟩ => rfl | ⟨1, _⟩ => rfl | ⟨2, _⟩ => rfl)
  rw [e, pexp_at, den_at]
  rfl

/-- Attention's output at (b, h, q, j): the weights against the values. -/
theorem attn_at (b : Fin 4) (h : Fin 16) (q : Fin 2048) (j : Fin 64) :
    Read.val_main_v29 (F := Ideal) x0 x1 x2 (ix4 b h q j) = Spec.attnR (Qkv x0 x2) (Ids x1) b q h j := by
  rw [Read.val_main_v29_apply]
  unfold Spec.attnR
  refine Finset.sum_congr rfl fun k _ => ?_
  have el : Read.lidx_main_v29 (ix4 b h q j) k = ix4 b h q k :=
    funext fun a => Fin.ext (by match a with | ⟨0, _⟩ => rfl | ⟨1, _⟩ => rfl | ⟨2, _⟩ => rfl | ⟨3, _⟩ => rfl)
  have er : Read.ridx_main_v29 (ix4 b h q j) k = ix4 b h k j :=
    funext fun a => Fin.ext (by match a with | ⟨0, _⟩ => rfl | ⟨1, _⟩ => rfl | ⟨2, _⟩ => rfl | ⟨3, _⟩ => rfl)
  rw [el, er, weight_at, v_at]

end Softmax

/-! ## The heads side by side, and the output projection -/

theorem idx_v31 (b : Fin 4) (n : Fin 2048) (c : Fin 1024) :
    Read.idx_main_v31 (ix3 b n c) = ix4 b n (Spec.headOf c) (Spec.laneOf c) := by
  funext a; apply Fin.ext
  have hb := b.isLt; have hn := n.isLt; have hc := c.isLt
  match a with
  | ⟨0, _⟩ => show ((b.val * 2048 + n.val) * 1024 + c.val) / 2097152 = b.val; omega
  | ⟨1, _⟩ => show ((b.val * 2048 + n.val) * 1024 + c.val) / 1024 % 2048 = n.val; omega
  | ⟨2, _⟩ => show ((b.val * 2048 + n.val) * 1024 + c.val) / 64 % 16 = c.val / 64; omega
  | ⟨3, _⟩ => show ((b.val * 2048 + n.val) * 1024 + c.val) % 64 = c.val % 64; omega

theorem idx_v30 (b : Fin 4) (n : Fin 2048) (h : Fin 16) (j : Fin 64) :
    Read.idx_main_v30 (ix4 b n h j) = ix4 b h n j := by
  funext a; apply Fin.ext
  match a with
  | ⟨0, _⟩ => rfl
  | ⟨1, _⟩ => rfl
  | ⟨2, _⟩ => rfl
  | ⟨3, _⟩ => rfl

section Output

variable (x0 : (⟨S4x2048x1024, .f32⟩ : BufTy).Contents (Elt Ideal)) (x1 : (⟨S4x2048, .i32⟩ : BufTy).Contents (Elt Ideal))
    (x2 : (⟨S3072x1024, .f32⟩ : BufTy).Contents (Elt Ideal)) (x3 : (⟨S1024x1024, .f32⟩ : BufTy).Contents (Elt Ideal))
    (x4 : (⟨S1024, .f32⟩ : BufTy).Contents (Elt Ideal))

/-- The heads' outputs side by side at (b, n, c): head c / 64, lane c % 64. -/
theorem merged_at (b : Fin 4) (n : Fin 2048) (c : Fin 1024) :
    Read.val_main_v31 (F := Ideal) x0 x1 x2 (ix3 b n c)
      = Spec.attnR (Qkv x0 x2) (Ids x1) b n (Spec.headOf c) (Spec.laneOf c) := by
  rw [Read.val_main_v31_apply, idx_v31, Read.val_main_v30_apply, idx_v30, attn_at]

end Output

/-- The reference's result at (b, n, e) is the specification's whole function, every softmax weight divided first, of the
    arguments read by coordinates. -/
theorem ref_eq (x0 : (⟨S4x2048x1024, .f32⟩ : BufTy).Contents (Elt Ideal)) (x1 : (⟨S4x2048, .i32⟩ : BufTy).Contents (Elt Ideal))
    (x2 : (⟨S3072x1024, .f32⟩ : BufTy).Contents (Elt Ideal)) (x3 : (⟨S1024x1024, .f32⟩ : BufTy).Contents (Elt Ideal))
    (x4 : (⟨S1024, .f32⟩ : BufTy).Contents (Elt Ideal)) (b : Fin 4) (n : Fin 2048) (e : Fin 1024) :
    (Read.val_main_v35 (F := Ideal) x0 x1 x2 x3 x4 : S4x2048x1024.Idx → EReal) (ix3 b n e)
      = Spec.wholeR (fun b n d => (x0 : S4x2048x1024.Idx → EReal) (ix3 b n d)) (fun b κ => (x1 : S4x2048.Idx → BitVec 32) (ix2 b κ))
          (fun e d => (x2 : S3072x1024.Idx → EReal) (ix2 e d)) (fun e c => (x3 : S1024x1024.Idx → EReal) (ix2 e c))
          (fun e => (x4 : S1024.Idx → EReal) (ix1 e)) b n e := by
  rw [Read.val_main_v35_apply, Read.val_main_v32_apply, Read.val_main_v34_apply, Read.val_main_v33_apply]
  have eb : Read.idx_main_v33 (Read.idx_main_v34 (ix3 b n e)) = ix1 e :=
    funext fun a => Fin.ext (by match a with | ⟨0, _⟩ => rfl)
  have es : (∑ k : Fin 1024, Read.val_main_v31 (F := Ideal) x0 x1 x2 (Read.lidx_main_v32 (ix3 b n e) k)
        * x3 (Read.ridx_main_v32 (ix3 b n e) k))
      = ∑ c : Fin 1024, Spec.attnR (Qkv x0 x2) (Ids x1) b n (Spec.headOf c) (Spec.laneOf c)
          * (x3 : S1024x1024.Idx → EReal) (ix2 e c) :=
    Finset.sum_congr rfl fun k _ => by
      have el : Read.lidx_main_v32 (ix3 b n e) k = ix3 b n k :=
        funext fun a => Fin.ext (by match a with | ⟨0, _⟩ => rfl | ⟨1, _⟩ => rfl | ⟨2, _⟩ => rfl)
      have er : Read.ridx_main_v32 (ix3 b n e) k = ix2 e k :=
        funext fun a => Fin.ext (by match a with | ⟨0, _⟩ => rfl | ⟨1, _⟩ => rfl)
      rw [el, er, merged_at]
  rw [eb, es]
  rfl

end Cert.ReferenceIdeal.RefG

end
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.Algebra.lean ====
/-
  The one law that joins the two programs: dividing the weighted sum of the values once by the row's sum of exponentials,
  or dividing every weight first, is the same extended real when every projected activation is a real number — the
  scores, the row maximum and the exponentials are then reals, and the row's sum of exponentials is a positive real.
-/
import proofs.«400423_j83313775608371_3_alg».proof.Proof.Spec
import proofs.«400423_j83313775608371_3_alg».proof.Proof.LibRealSums
import Idealize.ShloMosaic.PureOps.Ideal
import Idealize.ShloMosaic.PureOps.Ideal.Laws

noncomputable section

namespace Cert.Spec

open Idealize.ShloMosaic Cert.RealSums
open scoped BigOperators

/-! ### The three float words -/

/-- The word of −∞ is the bottom of the extended reals. -/
theorem negInf_eq_bot : negInf = ⊥ := by simp [negInf, Ideal.ofBits, Ideal.ieee]

/-- The mask's weight is a real number. -/
theorem negBig_real : ∃ r : ℝ, negBig = (r : EReal) := by
  unfold negBig Ideal.ofBits Ideal.ieee
  simp [-EReal.coe_mul, -EReal.coe_neg]

/-- The scale is a real number. -/
theorem eighth_real : ∃ r : ℝ, eighth = (r : EReal) := by
  unfold eighth Ideal.ofBits Ideal.ieee
  simp [-EReal.coe_mul, -EReal.coe_neg]

/-! ### Real projected activations give real scores, a real maximum, positive exponentials -/

/-- A projection of real entries has real entries. -/
theorem proj_real {E : ℕ} (x : Fin 4 → Fin 2048 → Fin 1024 → EReal) (w : Fin E → Fin 1024 → EReal)
    (hx : ∀ b n d, ∃ r : ℝ, x b n d = (r : EReal)) (hw : ∀ e d, ∃ r : ℝ, w e d = (r : EReal)) (b : Fin 4) (n : Fin 2048) (e : Fin E) :
    ∃ r : ℝ, proj x w b n e = (r : EReal) := by
  unfold proj
  refine sum_real _ _ fun d => ?_
  obtain ⟨r, hr⟩ := hx b n d
  obtain ⟨t, ht⟩ := hw e d
  exact ⟨r * t, by rw [hr, ht, EReal.coe_mul]⟩

section Attention

variable (Q : Fin 4 → Fin 2048 → Fin 3072 → EReal) (ids : Fin 4 → Fin 2048 → BitVec 32)
  (hQ : ∀ b n e, ∃ r : ℝ, Q b n e = (r : EReal))

include hQ

/-- Every score is a real: a finite sum of products of reals, plus an integer times a real, times a real. -/
theorem score_real (b : Fin 4) (h : Fin 16) (q κ : Fin 2048) : ∃ r : ℝ, score Q ids b h q κ = (r : EReal) := by
  unfold score
  obtain ⟨nb, hnb⟩ := negBig_real
  obtain ⟨ei, hei⟩ := eighth_real
  obtain ⟨d, hd⟩ := sum_real (Finset.univ : Finset (Fin 64)) (fun j => Q b q (col 0 h j) * Q b κ (col 1 h j)) fun j => by
    obtain ⟨r, hr⟩ := hQ b q (col 0 h j)
    obtain ⟨t, ht⟩ := hQ b κ (col 1 h j)
    exact ⟨r * t, by rw [hr, ht, EReal.coe_mul]⟩
  exact ⟨(d + ((ids b κ).toInt : ℝ) * nb) * ei, by rw [hd, hnb, hei, EReal.coe_mul, EReal.coe_add, EReal.coe_mul]⟩

/-- A row's maximum is a real. -/
theorem rowMax_real (b : Fin 4) (h : Fin 16) (q : Fin 2048) : ∃ r : ℝ, rowMax Q ids b h q = (r : EReal) := by
  unfold rowMax
  rw [negInf_eq_bot]
  exact fold_max_bot_real _ Finset.univ_nonempty _ fun κ => score_real Q ids hQ b h q κ

/-- Every exponential is a positive real. -/
theorem pexp_pos_real (b : Fin 4) (h : Fin 16) (q κ : Fin 2048) : ∃ r : ℝ, 0 < r ∧ pexp Q ids b h q κ = (r : EReal) := by
  unfold pexp
  obtain ⟨s, hs⟩ := score_real Q ids hQ b h q κ
  obtain ⟨m, hm⟩ := rowMax_real Q ids hQ b h q
  exact ⟨Real.exp (s - m), Real.exp_pos _, by rw [hs, hm, ← EReal.coe_sub, Ideal.exp_coe]⟩

/-- A row's sum of exponentials is a positive real. -/
theorem den_pos_real (b : Fin 4) (h : Fin 16) (q : Fin 2048) : ∃ r : ℝ, 0 < r ∧ den Q ids b h q = (r : EReal) := by
  unfold den
  exact sum_pos_real _ Finset.univ_nonempty _ fun κ => pexp_pos_real Q ids hQ b h q κ

end Attention

/-- The two orders of the division agree on real projected activations. -/
theorem attnK_eq_attnR (Q : Fin 4 → Fin 2048 → Fin 3072 → EReal) (ids : Fin 4 → Fin 2048 → BitVec 32)
    (hQ : ∀ b n e, ∃ r : ℝ, Q b n e = (r : EReal)) (b : Fin 4) (q : Fin 2048) (h : Fin 16) (j : Fin 64) :
    attnK Q ids b q h j = attnR Q ids b q h j := by
  unfold attnK attnR
  obtain ⟨l, hl0, hl⟩ := den_pos_real Q ids hQ b h q
  have hp := fun κ => pexp_pos_real Q ids hQ b h q κ
  choose p hp0 hp using hp
  have hv := fun κ => hQ b κ (col 2 h j)
  choose v hv using hv
  rw [hl]
  simp only [hp, hv, Ideal.div_coe hl0.ne']
  -- both sides are now built from inclusions of reals: pull the inclusion outside each and compare in ℝ
  have hK : (∑ κ : Fin 2048, (p κ : EReal) * (v κ : EReal)) = ((∑ κ : Fin 2048, p κ * v κ : ℝ) : EReal) := by
    rw [coe_sum]; exact Finset.sum_congr rfl fun κ _ => (EReal.coe_mul _ _)
  have hR : (∑ κ : Fin 2048, (p κ : EReal) * ((1 / l : ℝ) : EReal) * (v κ : EReal))
      = ((∑ κ : Fin 2048, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

/-- The whole function in the kernel's order is the whole function in the reference's. -/
theorem wholeK_eq_wholeR (x : Fin 4 → Fin 2048 → Fin 1024 → EReal) (ids : Fin 4 → Fin 2048 → BitVec 32) (win : Fin 3072 → Fin 1024 → EReal)
    (wout : Fin 1024 → Fin 1024 → EReal) (bias : Fin 1024 → EReal)
    (hx : ∀ b n d, ∃ r : ℝ, x b n d = (r : EReal)) (hwin : ∀ e d, ∃ r : ℝ, win e d = (r : EReal)) :
    wholeK x ids win wout bias = wholeR x ids win wout bias := by
  have ha : (fun b n c => attnK (proj x win) ids b n (headOf c) (laneOf c))
      = fun b n c => attnR (proj x win) ids b n (headOf c) (laneOf c) := by
    funext b n c
    exact attnK_eq_attnR (proj x win) ids (proj_real x win hx hwin) b n (headOf c) (laneOf c)
  unfold wholeK wholeR
  rw [ha]

end Cert.Spec

end
-- ==== Proof.Finite.lean ====
/-
  From the precondition to "every entry is a real". The precondition is the conjunction of four tests, each "every
  entry of the array is, in absolute value, below +∞"; the conjunction being true, each test is, so each entry of each
  tested array passes its comparison, and an extended real whose absolute value is below +∞ is neither infinity: it is a real.
-/
import proofs.«400423_j83313775608371_3_alg».proof.Pre_finite_inputs
import proofs.«400423_j83313775608371_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Finite

open Idealize.ShloMosaic
open Cert.Pre_finite_inputs

/-- An extended real whose absolute value, the larger of x and −x, compares below the word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The shape of a scalar has one index. -/
instance : Subsingleton S_.Idx := ⟨fun a b => funext fun d => d.elim0⟩

/-- One test read at one entry: where "all entries are below +∞ in absolute value" came out true, the entry is a real. -/
theorem real_of_all {S : Shape} {axes : List (Fin S.rank)} (x : FVec Ideal S .f32) (hb : S_.BroadcastsInDim S ![])
    (hr : S.ReducesTo axes S_) (hu : 0 < S_.numel)
    (e : Host.reduce IntOp.andi (cmpf .olt (Host.absf x) (broadcastInDim S ![] hb (constant (F := Ideal) S_ .f32 0x7F800000#32)))
      (constantI S_ 1 1#1) hr hu ValueIdx.ix0 = 1#1) (i : S.Idx) : ∃ r : ℝ, (x i : EReal) = (r : EReal) := by
  have hi := Host.reduce_andi_all _ _ hr hu _ e i
  rw [ValueIdx.cmpf_apply, ValueIdx.broadcastInDim_scalar_apply, ValueIdx.constant_apply] at hi
  exact real_of_abs_lt_inf (x i) hi

/-- The precondition makes every entry of the activations and of the input projection's weights a real number. -/
theorem of_pre [Cert.Pre_finite_inputs.Facts]
    (x0 : (⟨S4x2048x1024, .f32⟩ : BufTy).Contents (Elt Ideal)) (x1 : (⟨S4x2048, .i32⟩ : BufTy).Contents (Elt Ideal))
    (x2 : (⟨S3072x1024, .f32⟩ : BufTy).Contents (Elt Ideal)) (x3 : (⟨S1024x1024, .f32⟩ : BufTy).Contents (Elt Ideal))
    (x4 : (⟨S1024, .f32⟩ : BufTy).Contents (Elt Ideal))
    (h : Cert.Pre_finite_inputs.fn (F := Ideal) x0 x1 x2 x3 x4 = (fun _ => 1#1)) :
    (∀ i, ∃ r : ℝ, (x0 : _ → EReal) i = (r : EReal)) ∧ (∀ i, ∃ r : ℝ, (x2 : _ → EReal) i = (r : EReal)) := by
  have h0 := congrFun h ValueIdx.ix0
  dsimp only [fn, fn_part1] at h0
  -- the conjunction of the four tests, read at the scalar's one index
  obtain ⟨h012, _⟩ := IntOp.andi_eq_one.1 h0
  obtain ⟨h01, _⟩ := IntOp.andi_eq_one.1 h012
  obtain ⟨e0, e2⟩ := IntOp.andi_eq_one.1 h01
  exact ⟨fun i => real_of_all x0 _ _ _ e0 i, fun i => real_of_all x2 _ _ _ e2 i⟩

end Cert.Finite

end
-- ==== Proof.lean ====
/-
  The certificate of a multi-head self-attention kernel against its reference, over the extended reals.
  The kernel is three pipelined calls among reshapes: the QKV projection (the activations times the input weights), attention
  (per batch, pair of heads and tile of queries: masked scaled scores, a softmax over the keys, the weighted sum of the
  values), and the output projection (plus a bias). Its run is seven segments; each region's frame is the body's run on
  whole staging buffers at every grid point, and attention's three windows onto the one projected array hold it at three
  shares of the full one. The frames read the arguments off the run's last boundary, where no segment has written them.
  For the values: each region's output array is one function of its input arrays (the blocks tile it), so the kernel's
  result is the specification's whole function with the weighted sum of the values divided ONCE by the row's sum of
  exponentials; the reference's, read one operation at a time, is the same with every weight divided first. With finite
  inputs every projected activation is a real number, the row's sum of exponentials is a positive real, and the two orders
  of the division agree.
-/
import proofs.«400423_j83313775608371_3_alg».proof.Defs
import proofs.«400423_j83313775608371_3_alg».proof.Proof.Gen.Kernel
import proofs.«400423_j83313775608371_3_alg».proof.Proof.Gen.KernelIdeal
import proofs.«400423_j83313775608371_3_alg».proof.Proof.Gen.ReferenceIdeal
import proofs.«400423_j83313775608371_3_alg».proof.Proof.Gen.Pre_finite_inputs
import proofs.«400423_j83313775608371_3_alg».proof.Proof.Gen.ReferenceIdeal.Run
import proofs.«400423_j83313775608371_3_alg».proof.Proof.Gen.ReferenceIdeal.Read
import proofs.«400423_j83313775608371_3_alg».proof.Proof.K.Run
import proofs.«400423_j83313775608371_3_alg».proof.Proof.K.HostVals
import proofs.«400423_j83313775608371_3_alg».proof.Proof.KI.Run
import proofs.«400423_j83313775608371_3_alg».proof.Proof.KI.HostVals
import proofs.«400423_j83313775608371_3_alg».proof.Proof.KI.Chain
import proofs.«400423_j83313775608371_3_alg».proof.Proof.RefG
import proofs.«400423_j83313775608371_3_alg».proof.Proof.Algebra
import proofs.«400423_j83313775608371_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched: the run's last boundary read at each argument. -/
theorem frame_k [Cert.Kernel.Facts] [Cert.Pre_finite_inputs.Facts] : Cert.frame_Kernel := fun m ρ _ =>
  (θ_run Cert.Kernel.defs _ _).mono (fun r h c =>
    ⟨(h c _ (Cert.Kernel.Run.mem_uc Cert.Kernel.main_arg0 (by decide))).trans (Cert.Kernel.HostVals.W7_arg0 m c),
     (h c _ (Cert.Kernel.Run.mem_uc Cert.Kernel.main_arg1 (by decide))).trans (Cert.Kernel.HostVals.W7_arg1 m c),
     (h c _ (Cert.Kernel.Run.mem_uc Cert.Kernel.main_arg2 (by decide))).trans (Cert.Kernel.HostVals.W7_arg2 m c),
     (h c _ (Cert.Kernel.Run.mem_uc Cert.Kernel.main_arg3 (by decide))).trans (Cert.Kernel.HostVals.W7_arg3 m c),
     (h c _ (Cert.Kernel.Run.mem_uc Cert.Kernel.main_arg4 (by decide))).trans (Cert.Kernel.HostVals.W7_arg4 m c)⟩)
    (Cert.Kernel.Run.run_all (F := Bits) m ρ)

/-- The same of the idealized kernel, at the extended reals. -/
theorem frame_ki [Cert.KernelIdeal.Facts] [Cert.Pre_finite_inputs.Facts] : Cert.frame_KernelIdeal := fun m ρ _ =>
  (θ_run Cert.KernelIdeal.defs _ _).mono (fun r h c =>
    ⟨(h c _ (Cert.KernelIdeal.Run.mem_uc Cert.KernelIdeal.main_arg0 (by decide))).trans (Cert.KernelIdeal.HostVals.W7_arg0 m c),
     (h c _ (Cert.KernelIdeal.Run.mem_uc Cert.KernelIdeal.main_arg1 (by decide))).trans (Cert.KernelIdeal.HostVals.W7_arg1 m c),
     (h c _ (Cert.KernelIdeal.Run.mem_uc Cert.KernelIdeal.main_arg2 (by decide))).trans (Cert.KernelIdeal.HostVals.W7_arg2 m c),
     (h c _ (Cert.KernelIdeal.Run.mem_uc Cert.KernelIdeal.main_arg3 (by decide))).trans (Cert.KernelIdeal.HostVals.W7_arg3 m c),
     (h c _ (Cert.KernelIdeal.Run.mem_uc Cert.KernelIdeal.main_arg4 (by decide))).trans (Cert.KernelIdeal.HostVals.W7_arg4 m c)⟩)
    (Cert.KernelIdeal.Run.run_all (F := Ideal) m ρ)

/-- The reference has no kernel: its frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- The reference's result is the kernel's: entry by entry both are the specification's whole function of the arguments,
    in the two orders of the softmax's division, which agree on finite inputs. -/
theorem result_eq [Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Run.W7 m c (Proc.devRef .tc Cert.KernelIdeal.main_v9) := by
  obtain ⟨hx, hw⟩ := Cert.Finite.of_pre _ _ _ _ _ (hpre c)
  funext i
  obtain ⟨b, n, e, rfl⟩ : ∃ (b : Fin 4) (n : Fin 2048) (e : Fin 1024), i = ix3 b n e := ⟨i 0, i 1, i 2, eq_ix3 i⟩
  refine (Cert.ReferenceIdeal.RefG.ref_eq _ _ _ _ _ b n e).trans (Eq.trans ?_ (Cert.KernelIdeal.Chain.value m c b n e).symm)
  exact (congrFun (congrFun (congrFun (Cert.Spec.wholeK_eq_wholeR (Cert.KernelIdeal.Chain.X m c) (Cert.KernelIdeal.Chain.Ids m c)
    (Cert.KernelIdeal.Chain.Win m c) (Cert.KernelIdeal.Chain.Wout m c) (Cert.KernelIdeal.Chain.Bias m c)
    (fun b n d => hx (ix3 b n d)) (fun e d => hw (ix2 e d))) b) n) e).symm

/-- From memories agreeing on the arguments both programs run and end with equal results and unchanged arguments. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Run.W7 m c (Proc.devRef .tc Cert.KernelIdeal.main_v9), ?_, ?_⟩
  · exact (θ_run Cert.KernelIdeal.defs _ _).mono (fun r h c =>
      ⟨h c _ (Cert.KernelIdeal.Run.mem_uc Cert.KernelIdeal.main_v9 (by decide)),
       (h c _ (Cert.KernelIdeal.Run.mem_uc Cert.KernelIdeal.main_arg0 (by decide))).trans (Cert.KernelIdeal.HostVals.W7_arg0 m c),
       (h c _ (Cert.KernelIdeal.Run.mem_uc Cert.KernelIdeal.main_arg1 (by decide))).trans (Cert.KernelIdeal.HostVals.W7_arg1 m c),
       (h c _ (Cert.KernelIdeal.Run.mem_uc Cert.KernelIdeal.main_arg2 (by decide))).trans (Cert.KernelIdeal.HostVals.W7_arg2 m c),
       (h c _ (Cert.KernelIdeal.Run.mem_uc Cert.KernelIdeal.main_arg3 (by decide))).trans (Cert.KernelIdeal.HostVals.W7_arg3 m c),
       (h c _ (Cert.KernelIdeal.Run.mem_uc Cert.KernelIdeal.main_arg4 (by decide))).trans (Cert.KernelIdeal.HostVals.W7_arg4 m c)⟩)
      (Cert.KernelIdeal.Run.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, (hagree c).1, (hagree c).2.1, (hagree c).2.2.1, (hagree c).2.2.2.1, (hagree c).2.2.2.2]
    exact result_eq m hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
